-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32x128 : Shape := ⟨3, ![50000, 32, 128]⟩
abbrev S50000x128 : Shape := ⟨2, ![50000, 128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x32x128 : S_.BroadcastsInDim S50000x32x128 (![] : Fin 0 → Fin S50000x32x128.rank)
  reducesTo_S50000x32x128_S_d0_1_2 : S50000x32x128.ReducesTo [0, 1, 2] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16 .f32) (main_arg8 : FVec F S16x1 .f32) (main_arg9 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x1 .f32 := Host.absf main_arg8
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S128x16 .f32) (main_arg7 : FVec F S16 .f32) (main_arg8 : FVec F S16x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x32x128 .f32) (main_arg1 : FVec F S50000x128 .f32) (main_arg2 : FVec F S128x64 .f32) (main_arg3 : FVec F S64 .f32) (main_arg4 : FVec F S128x64 .f32) (main_arg5 : FVec F S64 .f32) (main_arg6 : FVec F S128x16 .f32) (main_arg7 : FVec F S16 .f32) (main_arg8 : FVec F S16x1 .f32) (main_arg9 : FVec F S1 .f32) : IVec S_ 1 :=
  let main_v0 : FVec F S50000x32x128 .f32 := Host.absf main_arg0
  let main_cst : FVec F S_ .f32 := constant S_ .f32 0x7F800000#32
  let main_v1 : FVec F S50000x32x128 .f32 := broadcastInDim S50000x32x128 ![] bcast_S_S50000x32x128 main_cst
  let main_v2 : IVec S50000x32x128 1 := cmpf .olt main_v0 main_v1
  let main_c : IVec S_ 1 := constantI S_ 1 1#1
  let main_v3 : IVec S_ 1 := (fun x v => Host.reduce IntOp.andi x v reducesTo_S50000x32x128_S_d0_1_2 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S50000x32x128 : Shape := ⟨3, ![50000, 32, 128]⟩
abbrev S50000x128 : Shape := ⟨2, ![50000, 128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S12500x128 : Shape := ⟨2, ![12500, 128]⟩
abbrev S512x32x128 : Shape := ⟨3, ![512, 32, 128]⟩
abbrev S512x128 : Shape := ⟨2, ![512, 128]⟩
abbrev S128x128 : Shape := ⟨2, ![128, 128]⟩
abbrev S64x16 : Shape := ⟨2, ![64, 16]⟩
abbrev S16384x128 : Shape := ⟨2, ![16384, 128]⟩
abbrev S16384x64 : Shape := ⟨2, ![16384, 64]⟩
abbrev S1x64 : Shape := ⟨2, ![1, 64]⟩
abbrev S512x64 : Shape := ⟨2, ![512, 64]⟩
abbrev S16384x16 : Shape := ⟨2, ![16384, 16]⟩
abbrev S512x32x16 : Shape := ⟨3, ![512, 32, 16]⟩
abbrev S512x16 : Shape := ⟨2, ![512, 16]⟩
abbrev S512x1x16 : Shape := ⟨3, ![512, 1, 16]⟩
abbrev S1x1x16 : Shape := ⟨3, ![1, 1, 16]⟩
abbrev S512x32 : Shape := ⟨2, ![512, 32]⟩
abbrev S1600000x1 : Shape := ⟨2, ![1600000, 1]⟩

abbrev nBuf : Space → Nat
  | .hbm => 12
  | .vmem => 14
  | .smem => 0
  | _ => 0

abbrev bufTy : (tb : Table) → Fin (tcTables nBuf tb) → BufTy
  | .hbm, ⟨0, _⟩ => ⟨S50000x32x128, .f32⟩
  | .hbm, ⟨1, _⟩ => ⟨S50000x128, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S12500x128, .f32⟩
  | .hbm, ⟨11, _⟩ => ⟨S1600000x1, .f32⟩
  | .local _ .vmem, ⟨0, _⟩ => ⟨S512x32x128, .f32⟩
  | .local _ .vmem, ⟨1, _⟩ => ⟨S512x32x128, .f32⟩
  | .local _ .vmem, ⟨2, _⟩ => ⟨S512x128, .f32⟩
  | .local _ .vmem, ⟨3, _⟩ => ⟨S512x128, .f32⟩
  | .local _ .vmem, ⟨4, _⟩ => ⟨S128x64, .f32⟩
  | .local _ .vmem, ⟨5, _⟩ => ⟨S64, .f32⟩
  | .local _ .vmem, ⟨6, _⟩ => ⟨S128x64, .f32⟩
  | .local _ .vmem, ⟨7, _⟩ => ⟨S64, .f32⟩
  | .local _ .vmem, ⟨8, _⟩ => ⟨S128x16, .f32⟩
  | .local _ .vmem, ⟨9, _⟩ => ⟨S16, .f32⟩
  | .local _ .vmem, ⟨10, _⟩ => ⟨S16x1, .f32⟩
  | .local _ .vmem, ⟨11, _⟩ => ⟨S1, .f32⟩
  | .local _ .vmem, ⟨12, _⟩ => ⟨S128x128, .f32⟩
  | .local _ .vmem, ⟨13, _⟩ => ⟨S128x128, .f32⟩
  | _, _ => ⟨S50000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![98], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S512x32x128_S512x32x128_0_0_0 : ∀ a, (![0, 0, 0] : Fin 3 → Nat) a + S512x32x128.size a ≤ S512x32x128.size a
  h_S512x32x128 : 0 < S512x32x128.numel
  inb_S512x128_S512x128_0_0 : ∀ a, (![0, 0] : Fin 2 → Nat) a + S512x128.size a ≤ S512x128.size a
  h_S512x128 : 0 < S512x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  slices_S128x16_o0_0_S64x16 : S128x16.Slices ![0, 0] S64x16
  slices_S128x16_o64_0_S64x16 : S128x16.Slices ![64, 0] S64x16
  shapeCasts_S512x32x128_S16384x128 : S512x32x128.ShapeCasts S16384x128
  shapeCasts_S64_S1x64 : S64.ShapeCasts S1x64
  broadcasts_S1x64_S16384x64 : S1x64.Broadcasts S16384x64
  broadcasts_S1x64_S512x64 : S1x64.Broadcasts S512x64
  shapeCasts_S16384x16_S512x32x16 : S16384x16.ShapeCasts S512x32x16
  shapeCasts_S512x16_S512x1x16 : S512x16.ShapeCasts S512x1x16
  broadcasts_S512x1x16_S512x32x16 : S512x1x16.Broadcasts S512x32x16
  shapeCasts_S16_S1x1x16 : S16.ShapeCasts S1x1x16
  broadcasts_S1x1x16_S512x32x16 : S1x1x16.Broadcasts S512x32x16
  shapeCasts_S16x1_S16 : S16x1.ShapeCasts S16
  inpos_S1_p0 : ∀ a, (![0] : Fin 1 → Nat) a < S1.size a
  reduces_S512x32x16_S512x32 : S512x32x16.Reduces [2] S512x32
  shapeCasts_S512x32_S128x128 : S512x32.ShapeCasts S128x128
  inb_S128x128_S128x128_0_0 : ∀ a, (![0, 0] : Fin 2 → Nat) a + S128x128.size a ≤ S128x128.size a
  h_S128x128 : 0 < S128x128.numel
  shapeCasts_S12500x128_S1600000x1 : S12500x128.ShapeCasts S1600000x1
  dot_S16384x128_S128x64_S16384x64_1_0_0_1_n_n_wf : DotDims.WF S16384x128 S128x64 S16384x64 [1] [0] [0] [1] [] []
  dot_S512x128_S128x64_S512x64_1_0_0_1_n_n_wf : DotDims.WF S512x128 S128x64 S512x64 [1] [0] [0] [1] [] []
  dot_S16384x64_S64x16_S16384x16_1_0_0_1_n_n_wf : DotDims.WF S16384x64 S64x16 S16384x16 [1] [0] [0] [1] [] []
  dot_S512x64_S64x16_S512x16_1_0_0_1_n_n_wf : DotDims.WF S512x64 S64x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x32x128.size a < S50000x32x128.size a
  hwx0_0 : ∀ i : grid0.Coords, EltTy.bits .f32 = 32 ∨ (Rect.unit (s := S50000x32x128) (fun a => cc0_transform_0 i a * S512x32x128.size a) (fun a => (Pipeline.Clip.of (cc0_transform_0 i a) (S512x32x128.size a) (S50000x32x128.size a)).extent (S512x32x128.size a)) fun a => Pipeline.Clip.inb (Pipeline.Clip.ok_of (hstart0_0 i a))).WholeWords (EltTy.packing .f32)
  hwxs0_0 : ∀ i : grid0.Coords, EltTy.bits .f32 = 32 ∨ (Rect.unit (s := S512x32x128) (fun _ => 0) (fun a => (Pipeline.Clip.of (cc0_transform_0 i a) (S512x32x128.size a) (S50000x32x128.size a)).extent (S512x32x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x128.size a < S50000x128.size a
  hwx0_1 : ∀ i : grid0.Coords, EltTy.bits .f32 = 32 ∨ (Rect.unit (s := S50000x128) (fun a => cc0_transform_1 i a * S512x128.size a) (fun a => (Pipeline.Clip.of (cc0_transform_1 i a) (S512x128.size a) (S50000x128.size a)).extent (S512x128.size a)) fun a => Pipeline.Clip.inb (Pipeline.Clip.ok_of (hstart0_1 i a))).WholeWords (EltTy.packing .f32)
  hwxs0_1 : ∀ i : grid0.Coords, EltTy.bits .f32 = 32 ∨ (Rect.unit (s := S512x128) (fun _ => 0) (fun a => (Pipeline.Clip.of (cc0_transform_1 i a) (S512x128.size a) (S50000x128.size a)).extent (S512x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S128x128.size a < S12500x128.size a
  hwx0_10 : ∀ i : grid0.Coords, EltTy.bits .f32 = 32 ∨ (Rect.unit (s := S12500x128) (fun a => cc0_transform_10 i a * S128x128.size a) (fun a => (Pipeline.Clip.of (cc0_transform_10 i a) (S128x128.size a) (S12500x128.size a)).extent (S128x128.size a)) fun a => Pipeline.Clip.inb (Pipeline.Clip.ok_of (hstart0_10 i a))).WholeWords (EltTy.packing .f32)
  hwxs0_10 : ∀ i : grid0.Coords, EltTy.bits .f32 = 32 ∨ (Rect.unit (s := S128x128) (fun _ => 0) (fun a => (Pipeline.Clip.of (cc0_transform_10 i a) (S128x128.size a) (S12500x128.size a)).extent (S128x128.size a)) fun a => (Nat.zero_add _).trans_le (Pipeline.Clip.extent_le (Pipeline.Clip.ok_of (hstart0_10 i a)))).WholeWords (EltTy.packing .f32)

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

abbrev win0_0 : Pipeline.Window sig grid0 :=
  Pipeline.Window.ofSpecClip (Memref.whole main_arg0) S512x32x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S512x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpecClip (Memref.whole main_v0) S128x128.size cc0_transform_10 reads0_10 true false 2 stage0_10 sem0_10
    hrank0 hreads0_10 hstart0_10 nbuf0_10 (Memref.isWhole_whole _) hwx0_10 hwxs0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x32x128 : Shape := ⟨3, ![50000, 32, 128]⟩
abbrev S50000x128 : Shape := ⟨2, ![50000, 128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S16x1 : Shape := ⟨2, ![16, 1]⟩
abbrev S1 : Shape := ⟨1, ![1]⟩
abbrev S50000x32x64 : Shape := ⟨3, ![50000, 32, 64]⟩
abbrev S1x1x64 : Shape := ⟨3, ![1, 1, 64]⟩
abbrev S_ : Shape := ⟨0, ![]⟩
abbrev S50000x64 : Shape := ⟨2, ![50000, 64]⟩
abbrev S1x64 : Shape := ⟨2, ![1, 64]⟩
abbrev S64x16 : Shape := ⟨2, ![64, 16]⟩
abbrev S50000x32x16 : Shape := ⟨3, ![50000, 32, 16]⟩
abbrev S50000x16 : Shape := ⟨2, ![50000, 16]⟩
abbrev S50000x1x16 : Shape := ⟨3, ![50000, 1, 16]⟩
abbrev S1x1x16 : Shape := ⟨3, ![1, 1, 16]⟩
abbrev S50000x32x1 : Shape := ⟨3, ![50000, 32, 1]⟩
abbrev S1x1x1 : Shape := ⟨3, ![1, 1, 1]⟩
abbrev S1600000x1 : Shape := ⟨2, ![1600000, 1]⟩

abbrev nBuf : Space → Nat
  | .hbm => 42
  | .vmem => 0
  | .smem => 0
  | _ => 0

abbrev bufTy : (tb : Table) → Fin (tcTables nBuf tb) → BufTy
  | .hbm, ⟨0, _⟩ => ⟨S50000x32x128, .f32⟩
  | .hbm, ⟨1, _⟩ => ⟨S50000x128, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S50000x32x64, .f32⟩
  | .hbm, ⟨11, _⟩ => ⟨S1x1x64, .f32⟩
  | .hbm, ⟨12, _⟩ => ⟨S50000x32x64, .f32⟩
  | .hbm, ⟨13, _⟩ => ⟨S50000x32x64, .f32⟩
  | .hbm, ⟨14, _⟩ => ⟨S_, .f32⟩
  | .hbm, ⟨15, _⟩ => ⟨S50000x32x64, .f32⟩
  | .hbm, ⟨16, _⟩ => ⟨S50000x32x64, .f32⟩
  | .hbm, ⟨17, _⟩ => ⟨S50000x64, .f32⟩
  | .hbm, ⟨18, _⟩ => ⟨S1x64, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | .hbm, ⟨24, _⟩ => ⟨S64x16, .f32⟩
  | .hbm, ⟨25, _⟩ => ⟨S50000x32x16, .f32⟩
  | .hbm, ⟨26, _⟩ => ⟨S64x16, .f32⟩
  | .hbm, ⟨27, _⟩ => ⟨S50000x16, .f32⟩
  | .hbm, ⟨28, _⟩ => ⟨S50000x1x16, .f32⟩
  | .hbm, ⟨29, _⟩ => ⟨S50000x32x16, .f32⟩
  | .hbm, ⟨30, _⟩ => ⟨S50000x32x16, .f32⟩
  | .hbm, ⟨31, _⟩ => ⟨S1x1x16, .f32⟩
  | .hbm, ⟨32, _⟩ => ⟨S50000x32x16, .f32⟩
  | .hbm, ⟨33, _⟩ => ⟨S50000x32x16, .f32⟩
  | .hbm, ⟨34, _⟩ => ⟨S_, .f32⟩
  | .hbm, ⟨35, _⟩ => ⟨S50000x32x16, .f32⟩
  | .hbm, ⟨36, _⟩ => ⟨S50000x32x16, .f32⟩
  | .hbm, ⟨37, _⟩ => ⟨S50000x32x1, .f32⟩
  | .hbm, ⟨38, _⟩ => ⟨S1x1x1, .f32⟩
  | .hbm, ⟨39, _⟩ => ⟨S50000x32x1, .f32⟩
  | .hbm, ⟨40, _⟩ => ⟨S50000x32x1, .f32⟩
  | .hbm, ⟨41, _⟩ => ⟨S1600000x1, .f32⟩
  | _, _ => ⟨S50000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_cst : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S50000x32x64_0_1_2 : S1x1x64.BroadcastsInDim S50000x32x64 (![0, 1, 2] : Fin 3 → Fin S50000x32x64.rank)
  bcast_S_S50000x32x64 : S_.BroadcastsInDim S50000x32x64 (![] : Fin 0 → Fin S50000x32x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S128x16_S64x16_0_0 : S128x16.Slices ![0, 0] S64x16
  slices_S128x16_S64x16_64_0 : S128x16.Slices ![64, 0] S64x16
  bcast_S50000x16_S50000x1x16_0_2 : S50000x16.BroadcastsInDim S50000x1x16 (![0, 2] : Fin 2 → Fin S50000x1x16.rank)
  bcast_S50000x1x16_S50000x32x16_0_1_2 : S50000x1x16.BroadcastsInDim S50000x32x16 (![0, 1, 2] : Fin 3 → Fin S50000x32x16.rank)
  bcast_S16_S1x1x16_2 : S16.BroadcastsInDim S1x1x16 (![2] : Fin 1 → Fin S1x1x16.rank)
  bcast_S1x1x16_S50000x32x16_0_1_2 : S1x1x16.BroadcastsInDim S50000x32x16 (![0, 1, 2] : Fin 3 → Fin S50000x32x16.rank)
  bcast_S_S50000x32x16 : S_.BroadcastsInDim S50000x32x16 (![] : Fin 0 → Fin S50000x32x16.rank)
  bcast_S1_S1x1x1_2 : S1.BroadcastsInDim S1x1x1 (![2] : Fin 1 → Fin S1x1x1.rank)
  bcast_S1x1x1_S50000x32x1_0_1_2 : S1x1x1.BroadcastsInDim S50000x32x1 (![0, 1, 2] : Fin 3 → Fin S50000x32x1.rank)
  shapeCasts_S50000x32x1_S1600000x1 : S50000x32x1.ShapeCasts S1600000x1
  dot_S50000x32x128_S128x64_S50000x32x64_2_0_01_1_n_n_wf : DotDims.WF S50000x32x128 S128x64 S50000x32x64 [2] [0] [0, 1] [1] [] []
  dot_S50000x128_S128x64_S50000x64_1_0_0_1_n_n_wf : DotDims.WF S50000x128 S128x64 S50000x64 [1] [0] [0] [1] [] []
  dot_S50000x32x64_S64x16_S50000x32x16_2_0_01_1_n_n_wf : DotDims.WF S50000x32x64 S64x16 S50000x32x16 [2] [0] [0, 1] [1] [] []
  dot_S50000x64_S64x16_S50000x16_1_0_0_1_n_n_wf : DotDims.WF S50000x64 S64x16 S50000x16 [1] [0] [0] [1] [] []
  dot_S50000x32x16_S16x1_S50000x32x1_2_0_01_1_n_n_wf : DotDims.WF S50000x32x16 S16x1 S50000x32x1 [2] [0] [0, 1] [1] [] []

variable [Facts₀]

def dot_S50000x32x128_S128x64_S50000x32x64_2_0_01_1_n_n : DotDims S50000x32x128 S128x64 S50000x32x64 where
  lhsContracting := [2]
  rhsContracting := [0]
  lhsNonContracting := [0, 1]
  rhsNonContracting := [1]
  lhsBatch := []
  rhsBatch := []
  wf := dot_S50000x32x128_S128x64_S50000x32x64_2_0_01_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x32x64_S64x16_S50000x32x16_2_0_01_1_n_n : DotDims S50000x32x64 S64x16 S50000x32x16 where
  lhsContracting := [2]
  rhsContracting := [0]
  lhsNonContracting := [0, 1]
  rhsNonContracting := [1]
  lhsBatch := []
  rhsBatch := []
  wf := dot_S50000x32x64_S64x16_S50000x32x16_2_0_01_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def dot_S50000x32x16_S16x1_S50000x32x1_2_0_01_1_n_n : DotDims S50000x32x16 S16x1 S50000x32x1 where
  lhsContracting := [2]
  rhsContracting := [0]
  lhsNonContracting := [0, 1]
  rhsNonContracting := [1]
  lhsBatch := []
  rhsBatch := []
  wf := dot_S50000x32x16_S16x1_S50000x32x1_2_0_01_1_n_n_wf

class Facts : Prop extends Facts₀ where

variable [Facts]
-- ==== Proof.KernelBody.lean ====
/-
  The kernel body as a separation-logic triple, for any float instance F.

  The body of _gnn_attn_kernel is straight-line: ten whole-buffer loads (the node-feature block, the
  self-feature block, and the eight weight and bias operands), pure arithmetic on the loaded vectors, one load of
  the result's buffer whose value is never used, and one whole-buffer store of the computed (128, 128) slab.
  Started with the ten input buffers at contents x0 ... x9 and the result's buffer at anything, it ends with the
  inputs' buffers as they were and the result's buffer holding (slab x0 ... x9): the stored payload as one pure
  function of the ten loaded vectors.  Nothing is assumed of the contents: the run is the same whatever words
  the buffers hold, which is what lets the rows of a clipped block that lie past the array's end be arbitrary.
-/
import proofs.«405484_j26963804685009_3_alg».proof.Proof.Gen.Kernel.Launch
import proofs.«405484_j26963804685009_3_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The slab the body stores, as a pure function of the ten loaded vectors: the hidden pre-activations
    (k0_pay2) of the two feature blocks and the first seven weight operands, then the final rectified
    projection and lane-dense reshape (k0_pay1) with the last two. -/
def slab (x0 : Vec F S512x32x128 .f32) (x1 : Vec F S512x128 .f32) (x2 : Vec F S128x64 .f32) (x3 : Vec F S64 .f32)
    (x4 : Vec F S128x64 .f32) (x5 : Vec F S64 .f32) (x6 : Vec F S128x16 .f32) (x7 : Vec F S16 .f32)
    (x8 : Vec F S16x1 .f32) (x9 : Vec F S1 .f32) : Vec F S128x128 .f32 :=
  k0_pay1 x8 x9 (k0_pay2 x0 x1 x2 x3 x4 x5 x6 x7) (k0_pay3 (F := F))

theorem sound_kernel (c : Dev nD) (E : Set ℕ) (i : grid0.Coords)
    (arg1 : Memref sig .tc .vmem S512x32x128 .f32) (harg1 : arg1.IsWhole) (arg2 : Memref sig .tc .vmem S512x128 .f32) (harg2 : arg2.IsWhole)
    (arg3 : Memref sig .tc .vmem S128x64 .f32) (harg3 : arg3.IsWhole) (arg4 : Memref sig .tc .vmem S64 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S128x16 .f32) (harg7 : arg7.IsWhole) (arg8 : Memref sig .tc .vmem S16 .f32) (harg8 : arg8.IsWhole)
    (arg9 : Memref sig .tc .vmem S16x1 .f32) (harg9 : arg9.IsWhole) (arg10 : Memref sig .tc .vmem S1 .f32) (harg10 : arg10.IsWhole)
    (arg11 : Memref sig .tc .vmem S128x128 .f32) (harg11 : arg11.IsWhole)
    (x0 : Vec F S512x32x128 .f32) (x1 : Vec F S512x128 .f32) (x2 : Vec F S128x64 .f32) (x3 : Vec F S64 .f32)
    (x4 : Vec F S128x64 .f32) (x5 : Vec F S64 .f32) (x6 : Vec F S128x16 .f32) (x7 : Vec F S16 .f32)
    (x8 : Vec F S16x1 .f32) (x9 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare (slab x0 x1 x2 x3 x4 x5 x6 x7 x8 x9)) -∗ K ⟨⟩))
      ⊢ wp frame (wpE (defs₀ (F := F)) Variants.none c none) E
          (cc0__gnn_attn_kernel i arg1 harg1 arg2 harg2 arg3 harg3 arg4 harg4 arg5 harg5 arg6 harg6 arg7 harg7 arg8 harg8 arg9 harg9 arg10 harg10 arg11 harg11) K := by
  simp only [cc0__gnn_attn_kernel_eq_skeleton]; unfold cc0__gnn_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  -- the one store covers the result's buffer, so reading it back gives the stored payload; each loaded value
  -- is the whole contents of its buffer
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  have hcov : ∀ (p0 : Vec F S128x128 .f32) (y : S128x128.Idx),
      ∃ pc ∈ ([⟨Rect.unit (s := S128x128) ![0, 0] S128x128.size inb_S128x128_S128x128_0_0, p0⟩] : List (View.Piece (Elt F) S128x128 .f32)), y ∈ pc.1.set :=
    fun p0 y => ⟨_, List.mem_singleton_self _, View.mem_set_unit_zero hz2 inb_S128x128_S128x128_0_0 y⟩
  rw [View.read_writes_eq_canon _ _ _ (hcov _)]
  sl_unfold_run_names
  rw [View.canon_unit_zero hz2]
  simp only [View.readAt_eq_ld, View.ld_unit_zero (S := S512x32x128) hz3, View.ld_unit_zero (S := S512x128) hz2,
    View.ld_unit_zero (S := S128x64) hz2, View.ld_unit_zero (S := S64) hz1, View.ld_unit_zero (S := S128x16) hz2,
    View.ld_unit_zero (S := S16) hz1, View.ld_unit_zero (S := S16x1) hz2, View.ld_unit_zero (S := S1) hz1]
  rfl

end Cert.Kernel.Body

end
-- ==== Proof.KernelFrame.lean ====
/-
  The word-level kernel's frame: it runs to the end from any memory, faults nowhere, and leaves its ten argument
  arrays as it found them.

  Nothing here depends on what the buffers hold.  The body is ten whole-buffer loads, arithmetic, and one
  whole-buffer store into the result's own staging buffer; it runs the same from any contents, so the proof data
  are relational and relate nothing: whatever a buffer held, whatever the body leaves there.  The argument arrays
  are input windows, which no write-back touches, and the one host operation after the region writes only the
  final result's buffer.
-/
import proofs.«405484_j26963804685009_3_alg».proof.Proof.Gen.Kernel.Frame
import proofs.«405484_j26963804685009_3_alg».proof.Proof.KernelBody

set_option maxRecDepth 16384

noncomputable section

namespace Cert.Kernel.Frm

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of what the body leaves in a buffer, nothing. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point t, the buffers at any contents Y, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10))

/-- and what it returns: each buffer at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X)
    ∗ (∃ X, ⌜(rdat m c).after 5 t (Y 5) X⌝ ∗ owns (c : Thread nD τ) (st0_5 t) fullShare X)
    ∗ (∃ X, ⌜(rdat m c).after 6 t (Y 6) X⌝ ∗ owns (c : Thread nD τ) (st0_6 t) fullShare X)
    ∗ (∃ X, ⌜(rdat m c).after 7 t (Y 7) X⌝ ∗ owns (c : Thread nD τ) (st0_7 t) fullShare X)
    ∗ (∃ X, ⌜(rdat m c).after 8 t (Y 8) X⌝ ∗ owns (c : Thread nD τ) (st0_8 t) fullShare X)
    ∗ (∃ X, ⌜(rdat m c).after 9 t (Y 9) X⌝ ∗ owns (c : Thread nD τ) (st0_9 t) fullShare X)
    ∗ (∃ X, ⌜(rdat m c).after 10 t (Y 10) X⌝ ∗ owns (c : Thread nD τ) (st0_10 t) fullShare X))

theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8, H9, H10⟩
  iapply (sound_kernel (F := F) c Set.univ (grid0.coords t) _ _ _ _ _ _ _ _ _ _ _ _ _ _ _ _ _ _ _ _ _ _
    (Y 0) (Y 1) (Y 2) (Y 3) (Y 4) (Y 5) (Y 6) (Y 7) (Y 8) (Y 9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (Y 6); isplitr; · ipureintro; trivial
    iexact H6
  isplitl [H7]
  · iexists (Y 7); isplitr; · ipureintro; trivial
    iexact H7
  isplitl [H8]
  · iexists (Y 8); isplitr; · ipureintro; trivial
    iexact H8
  isplitl [H9]
  · iexists (Y 9); isplitr; · ipureintro; trivial
    iexact H9
  · iexists (slab (Y 0) (Y 1) (Y 2) (Y 3) (Y 4) (Y 5) (Y 6) (Y 7) (Y 8) (Y 9)); isplitr; · ipureintro; trivial
    iexact H10

/-- The library's relational body obligation, at every point and all contents. -/
theorem body_obligation (c : Dev nD) : (rdat m c).BodyObligation (defs₀ (F := F)) Variants.none () Set.univ := fun t Y _ => by
  rw [bigSep_W0, bigSep_W0]
  exact sound_body m c t Y

/-- The reshape after the region writes the final result's buffer and nothing else. -/
theorem sfx_writes : ∀ ops ∈ ([hostOps1] : List (List (HloOp τ sig (Elt F)))), ∀ op ∈ ops,
    ∀ b : Ref sig .tc, Proc.devRef .tc b ∈ op.writes → b ∈ ({main_v1} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective (τ := τ) _ hb)

set_option backward.isDefEq.respectTransparency.types false in
/-- From any memory with zero counters every weakly fair execution of @main terminates, every argument array an
    input window's and so at its entry contents. -/
theorem run_main : θ_run defs (onTc (τ := τ) (main (F := F))) (s₀ m ρ)
    (RDat.FramePostR cfg0 (rdat m) ({main_v1} : Finset (Ref sig .tc)) (fun c b => V0 m c (Proc.devRef .tc b))) :=
  RDat.θ_run_frame_around_T cfgs (0 : Fin 1) launch0 defs₀ Variants.none (rdat m) ({main_v1} : Finset (Ref sig .tc)) m ρ main
    (hbody := fun c => body_obligation m c) (hshare := fun c => (rdat m c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fun _ _ => rfl) (hΦ := fun _ _ => rfl)

/-- THE FRAME: the certificate's frame claim of this program, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(RDat.FramePostR.arr_in h c 0 rfl).trans (V_main_arg0 m c),
      (RDat.FramePostR.arr_in h c 1 rfl).trans (V_main_arg1 m c),
      (RDat.FramePostR.arr_in h c 2 rfl).trans (V_main_arg2 m c),
      (RDat.FramePostR.arr_in h c 3 rfl).trans (V_main_arg3 m c),
      (RDat.FramePostR.arr_in h c 4 rfl).trans (V_main_arg4 m c),
      (RDat.FramePostR.arr_in h c 5 rfl).trans (V_main_arg5 m c),
      (RDat.FramePostR.arr_in h c 6 rfl).trans (V_main_arg6 m c),
      (RDat.FramePostR.arr_in h c 7 rfl).trans (V_main_arg7 m c),
      (RDat.FramePostR.arr_in h c 8 rfl).trans (V_main_arg8 m c),
      (RDat.FramePostR.arr_in h c 9 rfl).trans (V_main_arg9 m c)⟩) (run_main m ρ)

end Cert.Kernel.Frm

end
-- ==== Proof.IdealBody.lean ====
/-
  The kernel body as a separation-logic triple, for any float instance F.

  The body of _gnn_attn_kernel is straight-line: ten whole-buffer loads (the node-feature block, the
  self-feature block, and the eight weight and bias operands), pure arithmetic on the loaded vectors, one load of
  the result's buffer whose value is never used, and one whole-buffer store of the computed (128, 128) slab.
  Started with the ten input buffers at contents x0 ... x9 and the result's buffer at anything, it ends with the
  inputs' buffers as they were and the result's buffer holding (slab x0 ... x9): the stored payload as one pure
  function of the ten loaded vectors.  Nothing is assumed of the contents: the run is the same whatever words
  the buffers hold, which is what lets the rows of a clipped block that lie past the array's end be arbitrary.
-/
import proofs.«405484_j26963804685009_3_alg».proof.Proof.Gen.KernelIdeal.Launch
import proofs.«405484_j26963804685009_3_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The slab the body stores, as a pure function of the ten loaded vectors: the hidden pre-activations
    (k0_pay2) of the two feature blocks and the first seven weight operands, then the final rectified
    projection and lane-dense reshape (k0_pay1) with the last two. -/
def slab (x0 : Vec F S512x32x128 .f32) (x1 : Vec F S512x128 .f32) (x2 : Vec F S128x64 .f32) (x3 : Vec F S64 .f32)
    (x4 : Vec F S128x64 .f32) (x5 : Vec F S64 .f32) (x6 : Vec F S128x16 .f32) (x7 : Vec F S16 .f32)
    (x8 : Vec F S16x1 .f32) (x9 : Vec F S1 .f32) : Vec F S128x128 .f32 :=
  k0_pay1 x8 x9 (k0_pay2 x0 x1 x2 x3 x4 x5 x6 x7) (k0_pay3 (F := F))

theorem sound_kernel (c : Dev nD) (E : Set ℕ) (i : grid0.Coords)
    (arg1 : Memref sig .tc .vmem S512x32x128 .f32) (harg1 : arg1.IsWhole) (arg2 : Memref sig .tc .vmem S512x128 .f32) (harg2 : arg2.IsWhole)
    (arg3 : Memref sig .tc .vmem S128x64 .f32) (harg3 : arg3.IsWhole) (arg4 : Memref sig .tc .vmem S64 .f32) (harg4 : arg4.IsWhole)
    (arg5 : Memref sig .tc .vmem S128x64 .f32) (harg5 : arg5.IsWhole) (arg6 : Memref sig .tc .vmem S64 .f32) (harg6 : arg6.IsWhole)
    (arg7 : Memref sig .tc .vmem S128x16 .f32) (harg7 : arg7.IsWhole) (arg8 : Memref sig .tc .vmem S16 .f32) (harg8 : arg8.IsWhole)
    (arg9 : Memref sig .tc .vmem S16x1 .f32) (harg9 : arg9.IsWhole) (arg10 : Memref sig .tc .vmem S1 .f32) (harg10 : arg10.IsWhole)
    (arg11 : Memref sig .tc .vmem S128x128 .f32) (harg11 : arg11.IsWhole)
    (x0 : Vec F S512x32x128 .f32) (x1 : Vec F S512x128 .f32) (x2 : Vec F S128x64 .f32) (x3 : Vec F S64 .f32)
    (x4 : Vec F S128x64 .f32) (x5 : Vec F S64 .f32) (x6 : Vec F S128x16 .f32) (x7 : Vec F S16 .f32)
    (x8 : Vec F S16x1 .f32) (x9 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare (slab x0 x1 x2 x3 x4 x5 x6 x7 x8 x9)) -∗ K ⟨⟩))
      ⊢ wp frame (wpE (defs₀ (F := F)) Variants.none c none) E
          (cc0__gnn_attn_kernel i arg1 harg1 arg2 harg2 arg3 harg3 arg4 harg4 arg5 harg5 arg6 harg6 arg7 harg7 arg8 harg8 arg9 harg9 arg10 harg10 arg11 harg11) K := by
  simp only [cc0__gnn_attn_kernel_eq_skeleton]; unfold cc0__gnn_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  -- the one store covers the result's buffer, so reading it back gives the stored payload; each loaded value
  -- is the whole contents of its buffer
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  have hcov : ∀ (p0 : Vec F S128x128 .f32) (y : S128x128.Idx),
      ∃ pc ∈ ([⟨Rect.unit (s := S128x128) ![0, 0] S128x128.size inb_S128x128_S128x128_0_0, p0⟩] : List (View.Piece (Elt F) S128x128 .f32)), y ∈ pc.1.set :=
    fun p0 y => ⟨_, List.mem_singleton_self _, View.mem_set_unit_zero hz2 inb_S128x128_S128x128_0_0 y⟩
  rw [View.read_writes_eq_canon _ _ _ (hcov _)]
  sl_unfold_run_names
  rw [View.canon_unit_zero hz2]
  simp only [View.readAt_eq_ld, View.ld_unit_zero (S := S512x32x128) hz3, View.ld_unit_zero (S := S512x128) hz2,
    View.ld_unit_zero (S := S128x64) hz2, View.ld_unit_zero (S := S64) hz1, View.ld_unit_zero (S := S128x16) hz2,
    View.ld_unit_zero (S := S16) hz1, View.ld_unit_zero (S := S16x1) hz2, View.ld_unit_zero (S := S1) hz1]
  rfl

end Cert.KernelIdeal.Body

end
-- ==== Proof.Spec.lean ====
/-
  The mathematics of the kernel, with no program in sight.

  For one node b and one of its neighbours n, write x for the neighbour's feature row (128 reals) and y for the
  node's own feature row.  Both programs compute

      hn h = max (sum_f x f * Wnb (f, h) + bnb h) 0                      (64 hidden units of the neighbour)
      hs h = max (sum_f y f * Wself (f, h) + bself h) 0                  (64 hidden units of the node)
      a  k = max ((sum_h hn h * Wa1 (h, k) + sum_h hs h * Wa1 (64 + h, k)) + ba1 k) 0      (16 attention units)
      out  = sum_k a k * Wa2 (k, 0) + ba2 0

  over the extended reals, each sum a finite sum in its textbook order-free sense.  The kernel evaluates this for
  the 512 * 32 rows of a block at once and lays the 16384 results out as a (128, 128) slab; the reference evaluates
  it for all 50000 * 32 rows and lays them out as a (1600000, 1) column.  Row-major position p = 32 * b + n holds
  the value of row (b, n) in both layouts, so the whole claim is this one function read at two index maps.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The f32 zero word both programs rectify against, kept as the word: it is the same word on both sides and is
    never evaluated. -/
abbrev z0 : EReal := Ideal.ofBits .f32 0x00000000#32

variable (Wnb : (⟨2, ![128, 64]⟩ : Shape).Idx → EReal) (bnb : (⟨1, ![64]⟩ : Shape).Idx → EReal)
  (Wself : (⟨2, ![128, 64]⟩ : Shape).Idx → EReal) (bself : (⟨1, ![64]⟩ : Shape).Idx → EReal)
  (Wa1 : (⟨2, ![128, 16]⟩ : Shape).Idx → EReal) (ba1 : (⟨1, ![16]⟩ : Shape).Idx → EReal)
  (Wa2 : (⟨2, ![16, 1]⟩ : Shape).Idx → EReal) (ba2 : (⟨1, ![1]⟩ : Shape).Idx → EReal)

/-- A hidden unit of a feature row under a (128, 64) weight and a 64-bias: the rectified affine form. -/
def hid (W : (⟨2, ![128, 64]⟩ : Shape).Idx → EReal) (b : (⟨1, ![64]⟩ : Shape).Idx → EReal) (x : Fin 128 → EReal) (h : Fin 64) : EReal :=
  max ((∑ f : Fin 128, x f * W (ix2 f h)) + b (ix1 h)) z0

/-- Row h of the upper half of Wa1 (the neighbour half). -/
abbrev top (h : Fin 64) : Fin 128 := ⟨h.val, by omega⟩
/-- Row h of the lower half of Wa1 (the self half). -/
abbrev bot (h : Fin 64) : Fin 128 := ⟨64 + h.val, by omega⟩

/-- An attention unit of the pair (x, y): the neighbour's hidden units through the upper half of Wa1, the node's
    through the lower half, the bias, rectified. -/
def att (x y : Fin 128 → EReal) (k : Fin 16) : EReal :=
  max (((∑ h : Fin 64, hid Wnb bnb x h * Wa1 (ix2 (top h) k)) + (∑ h : Fin 64, hid Wself bself y h * Wa1 (ix2 (bot h) k))) + ba1 (ix1 k)) z0

/-- The attention logit of the pair (x, y). -/
def outRow (x y : Fin 128 → EReal) : EReal :=
  (∑ k : Fin 16, att Wnb bnb Wself bself Wa1 ba1 x y k * Wa2 (ix2 k (0 : Fin 1))) + ba2 (ix1 (0 : Fin 1))

/-- Neighbour row (b, n) of a (B, 32, 128) feature array. -/
abbrev nbRow {B : Nat} (X : (⟨3, ![B, 32, 128]⟩ : Shape).Idx → EReal) (b : Fin B) (n : Fin 32) : Fin 128 → EReal := fun f => X (ix3 b n f)
/-- Node row b of a (B, 128) feature array. -/
abbrev selfRow {B : Nat} (Y : (⟨2, ![B, 128]⟩ : Shape).Idx → EReal) (b : Fin B) : Fin 128 → EReal := fun f => Y (ix2 b f)

/-- The logit of neighbour n of node b, from the two feature arrays. -/
def logit {B : Nat} (X : (⟨3, ![B, 32, 128]⟩ : Shape).Idx → EReal) (Y : (⟨2, ![B, 128]⟩ : Shape).Idx → EReal) (b : Fin B) (n : Fin 32) : EReal :=
  outRow Wnb bnb Wself bself Wa1 ba1 Wa2 ba2 (nbRow X b n) (selfRow Y b)

end Cert.Spec

end
-- ==== Proof.IdealData.lean ====
/-
  The idealized kernel's proof data and what each grid point leaves, over the extended reals.

  The grid has 98 points; point t handles nodes 512 t .. 512 t + 511.  Fifty thousand is 97 * 512 + 336, so the
  last block of the two feature arrays overhangs them by 176 rows and the last (128, 128) block of the (12500, 128)
  result overhangs it by 44 rows: those transfers are cut at the arrays' ends.  A cut fetch leaves the rows of the
  staging buffer past the array's end at words nothing names; the body computes on them all the same, and what it
  computes from them lands in rows of the result's buffer that the cut write-back does not move.  Row (b, n) of a
  block depends on feature rows (b, n) and b alone, and the 84 result rows that are moved hold exactly the logits
  of the 336 nodes inside the arrays (336 * 32 = 84 * 128), so the moved part of the result never sees an unnamed
  word.  The proof data therefore name each clipped window's buffer only on its moved part (the rest is filled
  with a word of our choosing that nothing reads), and the result's as the block of ONE whole-array function,
  wholeLogits, of the argument arrays.
-/
import proofs.«405484_j26963804685009_3_alg».proof.Proof.Gen.KernelIdeal.Frame
import proofs.«405484_j26963804685009_3_alg».proof.Proof.IdealBody
import proofs.«405484_j26963804685009_3_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The argument arrays, at their literal types -/

abbrev a0 (c : Dev nD) : Vec Ideal S50000x32x128 .f32 := V m c main_arg0
abbrev a1 (c : Dev nD) : Vec Ideal S50000x128 .f32 := V m c main_arg1
abbrev a2 (c : Dev nD) : Vec Ideal S128x64 .f32 := V m c main_arg2
abbrev a3 (c : Dev nD) : Vec Ideal S64 .f32 := V m c main_arg3
abbrev a4 (c : Dev nD) : Vec Ideal S128x64 .f32 := V m c main_arg4
abbrev a5 (c : Dev nD) : Vec Ideal S64 .f32 := V m c main_arg5
abbrev a6 (c : Dev nD) : Vec Ideal S128x16 .f32 := V m c main_arg6
abbrev a7 (c : Dev nD) : Vec Ideal S16 .f32 := V m c main_arg7
abbrev a8 (c : Dev nD) : Vec Ideal S16x1 .f32 := V m c main_arg8
abbrev a9 (c : Dev nD) : Vec Ideal S1 .f32 := V m c main_arg9

/-- The logit of neighbour n of node b, from the argument arrays. -/
def logitOf (c : Dev nD) (b : Fin 50000) (n : Fin 32) : EReal :=
  Cert.Spec.logit (a2 m c) (a3 m c) (a4 m c) (a5 m c) (a6 m c) (a7 m c) (a8 m c) (a9 m c) (a0 m c) (a1 m c) b n

/-- The whole (12500, 128) result: element (R, l) is the logit at row-major position 128 R + l = 32 b + n. -/
def wholeLogits (c : Dev nD) : Vec Ideal S12500x128 .f32 := fun j =>
  logitOf m c ⟨(128 * (j 0).val + (j 1).val) / 32, by
      have h0 : (j 0).val < 12500 := (j 0).isLt; have h1 : (j 1).val < 128 := (j 1).isLt; omega⟩
    ⟨(128 * (j 0).val + (j 1).val) % 32, Nat.mod_lt _ (by decide)⟩

/-- The word the unmoved rows of a clipped window's buffer are filled out with in the proof data: nothing reads it. -/
abbrev pad : Elt Ideal .f32 := Cert.Spec.z0

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => pad) (iblk m c 0 t)
    | ⟨1, _⟩ => win0_1.fill (grid0.coords t) (fun _ => pad) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => win0_10.fill (grid0.coords t) (fun _ => pad) ((win0_10.blk t).view.read (Elt Ideal) (wholeLogits m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (fun _ => pad) (iblk m c 0 t) := by dsimp only [dats]
theorem after0_1 (c : Dev nD) (t : Fin cfg0.N) : (dats m 0 c).after 1 t = win0_1.fill (grid0.coords t) (fun _ => pad) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t
    = win0_10.fill (grid0.coords t) (fun _ => pad) ((win0_10.blk t).view.read (Elt Ideal) (wholeLogits m c)) := by dsimp only [dats]

/-! ## What the body finds in each buffer -/

/-- The two feature windows are fetched at every point: their buffers hold the block on the rows inside the array
    and whatever they held elsewhere. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- The eight weight windows are fetched once and left in place: their buffers hold the whole operand at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.KernelIdeal.Val

end
-- ==== Proof.IdealPoint.lean ====
/-
  One grid point of the idealized kernel: what the moved part of the result's buffer holds after the body.
-/
import proofs.«405484_j26963804685009_3_alg».proof.Proof.IdealData

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- The element reading of the stored slab (proved where the payloads are opened): element (r, l) is the logit of
    the block's row (b, n) at the same row-major position. -/
def SlabReads : Prop :=
  ∀ (x0 : Vec Ideal S512x32x128 .f32) (x1 : Vec Ideal S512x128 .f32) (x2 : Vec Ideal S128x64 .f32) (x3 : Vec Ideal S64 .f32)
    (x4 : Vec Ideal S128x64 .f32) (x5 : Vec Ideal S64 .f32) (x6 : Vec Ideal S128x16 .f32) (x7 : Vec Ideal S16 .f32)
    (x8 : Vec Ideal S16x1 .f32) (x9 : Vec Ideal S1 .f32) (r l : Fin 128) (b : Fin 512) (n : Fin 32),
    32 * b.val + n.val = 128 * r.val + l.val →
    slab (F := Ideal) x0 x1 x2 x3 x4 x5 x6 x7 x8 x9 (ix2 r l) = Cert.Spec.logit x2 x3 x4 x5 x6 x7 x8 x9 x0 x1 b n

/-! ## The index maps and the cuts, decided over the grid -/

theorem grid_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

theorem cut_facts : ∀ t : Fin cfg0.N,
    win0_0.xsize (grid0.coords t) (0 : Fin 3) = min 512 (50000 - 512 * t.val) ∧ win0_0.xsize (grid0.coords t) (1 : Fin 3) = 32
    ∧ win0_0.xsize (grid0.coords t) (2 : Fin 3) = 128
    ∧ win0_1.xsize (grid0.coords t) (0 : Fin 2) = min 512 (50000 - 512 * t.val) ∧ win0_1.xsize (grid0.coords t) (1 : Fin 2) = 128
    ∧ win0_10.xsize (grid0.coords t) (0 : Fin 2) = min 128 (12500 - 128 * t.val) ∧ win0_10.xsize (grid0.coords t) (1 : Fin 2) = 128 :=
  (by decide +kernel : ∀ t : Fin grid0.N, _)

theorem weight_idx : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0 :=
  (by decide +kernel : ∀ t : Fin grid0.N, _)

/-! ## The weight operands' blocks are the operands -/

theorem iblk2 (c : Dev nD) (t : Fin cfg0.N) : iblk m c 2 t = a2 m c := by
  funext j
  show V m c main_arg2 (((cfg0.win 2).blk t).view.emb j) = V m c main_arg2 j
  obtain ⟨e0, e1, -, -, -, -, -, -, -, -, -, -⟩ := weight_idx t
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 64 + 1 * (j 1).val = (j 1).val; omega

theorem iblk3 (c : Dev nD) (t : Fin cfg0.N) : iblk m c 3 t = a3 m c := by
  funext j
  show V m c main_arg3 (((cfg0.win 3).blk t).view.emb j) = V m c main_arg3 j
  obtain ⟨-, -, e0, -, -, -, -, -, -, -, -, -⟩ := weight_idx t
  refine congrArg _ (funext fun a => Fin.ext ?_)
  match a with
  | ⟨0, _⟩ => show win0_3.index t (0 : Fin 1) * 64 + 1 * (j 0).val = (j 0).val; omega

theorem iblk4 (c : Dev nD) (t : Fin cfg0.N) : iblk m c 4 t = a4 m c := by
  funext j
  show V m c main_arg4 (((cfg0.win 4).blk t).view.emb j) = V m c main_arg4 j
  obtain ⟨-, -, -, e0, e1, -, -, -, -, -, -, -⟩ := weight_idx t
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 64 + 1 * (j 1).val = (j 1).val; omega

theorem iblk5 (c : Dev nD) (t : Fin cfg0.N) : iblk m c 5 t = a5 m c := by
  funext j
  show V m c main_arg5 (((cfg0.win 5).blk t).view.emb j) = V m c main_arg5 j
  obtain ⟨-, -, -, -, -, e0, -, -, -, -, -, -⟩ := weight_idx t
  refine congrArg _ (funext fun a => Fin.ext ?_)
  match a with
  | ⟨0, _⟩ => show win0_5.index t (0 : Fin 1) * 64 + 1 * (j 0).val = (j 0).val; omega

theorem iblk6 (c : Dev nD) (t : Fin cfg0.N) : iblk m c 6 t = a6 m c := by
  funext j
  show V m c main_arg6 (((cfg0.win 6).blk t).view.emb j) = V m c main_arg6 j
  obtain ⟨-, -, -, -, -, -, e0, e1, -, -, -, -⟩ := weight_idx t
  refine congrArg _ (funext fun a => Fin.ext ?_)
  match a with
  | ⟨0, _⟩ => show win0_6.index t (0 : Fin 2) * 128 + 1 * (j 0).val = (j 0).val; omega
  | ⟨1, _⟩ => show win0_6.index t (1 : Fin 2) * 16 + 1 * (j 1).val = (j 1).val; omega

theorem iblk7 (c : Dev nD) (t : Fin cfg0.N) : iblk m c 7 t = a7 m c := by
  funext j
  show V m c main_arg7 (((cfg0.win 7).blk t).view.emb j) = V m c main_arg7 j
  obtain ⟨-, -, -, -, -, -, -, -, e0, -, -, -⟩ := weight_idx t
  refine congrArg _ (funext fun a => Fin.ext ?_)
  match a with
  | ⟨0, _⟩ => show win0_7.index t (0 : Fin 1) * 16 + 1 * (j 0).val = (j 0).val; omega

theorem iblk8 (c : Dev nD) (t : Fin cfg0.N) : iblk m c 8 t = a8 m c := by
  funext j
  show V m c main_arg8 (((cfg0.win 8).blk t).view.emb j) = V m c main_arg8 j
  obtain ⟨-, -, -, -, -, -, -, -, -, e0, e1, -⟩ := weight_idx t
  refine congrArg _ (funext fun a => Fin.ext ?_)
  match a with
  | ⟨0, _⟩ => show win0_8.index t (0 : Fin 2) * 16 + 1 * (j 0).val = (j 0).val; omega
  | ⟨1, _⟩ => show win0_8.index t (1 : Fin 2) * 1 + 1 * (j 1).val = (j 1).val; omega

theorem iblk9 (c : Dev nD) (t : Fin cfg0.N) : iblk m c 9 t = a9 m c := by
  funext j
  show V m c main_arg9 (((cfg0.win 9).blk t).view.emb j) = V m c main_arg9 j
  obtain ⟨-, -, -, -, -, -, -, -, -, -, -, e0⟩ := weight_idx t
  refine congrArg _ (funext fun a => Fin.ext ?_)
  match a with
  | ⟨0, _⟩ => show win0_9.index t (0 : Fin 1) * 1 + 1 * (j 0).val = (j 0).val; omega

/-! ## A feature block read inside the array -/

/-- Row b of the neighbour-feature buffer at point t, when node 512 t + b is inside the array, is that node's rows:
    the fetch moved it, whatever the buffer held before. -/
theorem fill0_apply (c : Dev nD) (t : Fin cfg0.N) (d : win0_0.block.Idx → Elt Ideal win0_0.elt) (b : Fin 512) (n : Fin 32) (f : Fin 128)
    (B : Fin 50000) (hB : B.val = 512 * t.val + b.val) :
    win0_0.fill (grid0.coords t) d (iblk m c 0 t) (ix3 b n f) = a0 m c (ix3 B n f) := by
  obtain ⟨c0, c1, c2, -⟩ := cut_facts t
  obtain ⟨g0, g1, g2, -⟩ := grid_facts t
  have hBlt : B.val < 50000 := B.isLt
  have hm : win0_0.moved (grid0.coords t) (ix3 b n f) = true := (win0_0.moved_iff _ _).mpr fun a => by
    match a with
    | ⟨0, _⟩ => show b.val < win0_0.xsize (grid0.coords t) (0 : Fin 3); rw [c0]; have := b.isLt; omega
    | ⟨1, _⟩ => show n.val < win0_0.xsize (grid0.coords t) (1 : Fin 3); rw [c1]; exact n.isLt
    | ⟨2, _⟩ => show f.val < win0_0.xsize (grid0.coords t) (2 : Fin 3); rw [c2]; exact f.isLt
  unfold Window.fill
  rw [dif_pos hm]
  show V m c main_arg0 (((cfg0.win 0).blk t).view.emb _) = V m c main_arg0 (ix3 B n f)
  refine congrArg _ (funext fun a => Fin.ext ?_)
  match a with
  | ⟨0, _⟩ => show win0_0.index t (0 : Fin 3) * 512 + 1 * b.val = B.val; omega
  | ⟨1, _⟩ => show win0_0.index t (1 : Fin 3) * 32 + 1 * n.val = n.val; omega
  | ⟨2, _⟩ => show win0_0.index t (2 : Fin 3) * 128 + 1 * f.val = f.val; omega

theorem fill1_apply (c : Dev nD) (t : Fin cfg0.N) (d : win0_1.block.Idx → Elt Ideal win0_1.elt) (b : Fin 512) (f : Fin 128)
    (B : Fin 50000) (hB : B.val = 512 * t.val + b.val) :
    win0_1.fill (grid0.coords t) d (iblk m c 1 t) (ix2 b f) = a1 m c (ix2 B f) := by
  obtain ⟨-, -, -, c0, c1, -⟩ := cut_facts t
  obtain ⟨-, -, -, g0, g1, -⟩ := grid_facts t
  have hBlt : B.val < 50000 := B.isLt
  have hm : win0_1.moved (grid0.coords t) (ix2 b f) = true := (win0_1.moved_iff _ _).mpr fun a => by
    match a with
    | ⟨0, _⟩ => show b.val < win0_1.xsize (grid0.coords t) (0 : Fin 2); rw [c0]; have := b.isLt; omega
    | ⟨1, _⟩ => show f.val < win0_1.xsize (grid0.coords t) (1 : Fin 2); rw [c1]; exact f.isLt
  unfold Window.fill
  rw [dif_pos hm]
  show V m c main_arg1 (((cfg0.win 1).blk t).view.emb _) = V m c main_arg1 (ix2 B f)
  refine congrArg _ (funext fun a => Fin.ext ?_)
  match a with
  | ⟨0, _⟩ => show win0_1.index t (0 : Fin 2) * 512 + 1 * b.val = B.val; omega
  | ⟨1, _⟩ => show win0_1.index t (1 : Fin 2) * 128 + 1 * f.val = f.val; omega

/-! ## The moved part of the result's buffer -/

/-- After the body at point t, on the rows the write-back moves, the result's buffer holds the block of the whole
    result: whatever filled out the feature buffers past the arrays' ends. -/
theorem cut_slab (H : SlabReads) (c : Dev nD) (t : Fin cfg0.N) (d0 : win0_0.block.Idx → Elt Ideal win0_0.elt)
    (d1 : win0_1.block.Idx → Elt Ideal win0_1.elt) :
    win0_10.cut (grid0.coords t) (slab (F := Ideal) (win0_0.fill (grid0.coords t) d0 (iblk m c 0 t)) (win0_1.fill (grid0.coords t) d1 (iblk m c 1 t))
        (a2 m c) (a3 m c) (a4 m c) (a5 m c) (a6 m c) (a7 m c) (a8 m c) (a9 m c))
      = (win0_10.blk t).view.read (Elt Ideal) (wholeLogits m c) := by
  obtain ⟨-, -, -, -, -, c0, c1⟩ := cut_facts t
  obtain ⟨-, -, -, -, -, g0, g1⟩ := grid_facts t
  funext j
  have hj0 : (j 0).val < min 128 (12500 - 128 * t.val) := c0 ▸ (j 0).isLt
  have hj1 : (j 1).val < 128 := c1 ▸ (j 1).isLt
  have ht : t.val < 98 := t.isLt
  -- the element's coordinates in the block, the block's row it is the logit of, and that row in the arrays
  let r : Fin 128 := ⟨(j 0).val, by omega⟩
  let l : Fin 128 := ⟨(j 1).val, hj1⟩
  let b : Fin 512 := ⟨4 * (j 0).val + (j 1).val / 32, by omega⟩
  let n : Fin 32 := ⟨(j 1).val % 32, Nat.mod_lt _ (by decide)⟩
  let B : Fin 50000 := ⟨512 * t.val + (4 * (j 0).val + (j 1).val / 32), by omega⟩
  have hx : win0_10.xinj (grid0.coords t) j = ix2 r l := funext fun a => by
    match a with
    | ⟨0, _⟩ => rfl
    | ⟨1, _⟩ => rfl
  show slab (F := Ideal) _ _ _ _ _ _ _ _ _ _ (win0_10.xinj (grid0.coords t) j) = wholeLogits m c (((cfg0.win 10).blk t).view.emb j)
  rw [hx, H _ _ _ _ _ _ _ _ _ _ r l b n (by show 32 * (4 * (j 0).val + (j 1).val / 32) + (j 1).val % 32 = 128 * (j 0).val + (j 1).val; omega)]
  have hemb : ((cfg0.win 10).blk t).view.emb j = (ix2 (⟨128 * t.val + (j 0).val, by omega⟩ : Fin 12500) l : S12500x128.Idx) :=
    funext fun a => Fin.ext (by
      match a with
      | ⟨0, _⟩ => show win0_10.index t (0 : Fin 2) * 128 + 1 * (j 0).val = 128 * t.val + (j 0).val; omega
      | ⟨1, _⟩ => show win0_10.index t (1 : Fin 2) * 128 + 1 * (j 1).val = (j 1).val; omega)
  rw [hemb]
  unfold wholeLogits logitOf Cert.Spec.logit
  have hBn : (⟨(128 * (128 * t.val + (j 0).val) + (j 1).val) / 32, by omega⟩ : Fin 50000) = B := Fin.ext (by
    show (128 * (128 * t.val + (j 0).val) + (j 1).val) / 32 = 512 * t.val + (4 * (j 0).val + (j 1).val / 32); omega)
  have hnn : (⟨(128 * (128 * t.val + (j 0).val) + (j 1).val) % 32, Nat.mod_lt _ (by decide)⟩ : Fin 32) = n := Fin.ext (by
    show (128 * (128 * t.val + (j 0).val) + (j 1).val) % 32 = (j 1).val % 32; omega)
  show Cert.Spec.outRow _ _ _ _ _ _ _ _ _ _ = Cert.Spec.outRow _ _ _ _ _ _ _ _
    (Cert.Spec.nbRow (a0 m c) ⟨(128 * (128 * t.val + (j 0).val) + (j 1).val) / 32, _⟩ ⟨(128 * (128 * t.val + (j 0).val) + (j 1).val) % 32, _⟩)
    (Cert.Spec.selfRow (a1 m c) ⟨(128 * (128 * t.val + (j 0).val) + (j 1).val) / 32, _⟩)
  rw [hBn, hnn]
  have e0 : Cert.Spec.nbRow (win0_0.fill (grid0.coords t) d0 (iblk m c 0 t)) b n = Cert.Spec.nbRow (a0 m c) B n :=
    funext fun f => fill0_apply m c t d0 b n f B rfl
  have e1 : Cert.Spec.selfRow (win0_1.fill (grid0.coords t) d1 (iblk m c 1 t)) b = Cert.Spec.selfRow (a1 m c) B :=
    funext fun f => fill1_apply m c t d1 b f B rfl
  rw [e0, e1]

end Cert.KernelIdeal.Val

end
-- ==== Proof.IdealRun.lean ====
/-
  The idealized kernel's run: the body obligation at every grid point, the launch, the result array after the
  last write-back, and the host reshape after the region.
-/
import proofs.«405484_j26963804685009_3_alg».proof.Proof.IdealPoint

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The body obligation at a point -/

/-- What the body is called with at point t: the invariant, what the core owes, and each window's current buffer
    at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns: the three clipped windows' buffers stated on their moved parts only, the weight windows'
    buffers exactly. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare (win0_10.fill (grid0.coords t) d (win0_10.cut (grid0.coords t) ((dats m 0 c).after 10 t)))))

theorem sound_body (H : SlabReads) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  simp only [iblk2, iblk3, iblk4, iblk5, iblk6, iblk7, iblk8, iblk9, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel (F := Ideal) c Set.univ (grid0.coords t) _ _ _ _ _ _ _ _ _ _ _ _ _ _ _ _ _ _ _ _ _ _
    (win0_0.fill (grid0.coords t) d0 (iblk m c 0 t)) (win0_1.fill (grid0.coords t) d1 (iblk m c 1 t))
    (a2 m c) (a3 m c) (a4 m c) (a5 m c) (a6 m c) (a7 m c) (a8 m c) (a9 m c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  -- the result's buffer holds the whole slab; on the moved rows that is the block of the whole result
  iexists (slab (F := Ideal) (win0_0.fill (grid0.coords t) d0 (iblk m c 0 t)) (win0_1.fill (grid0.coords t) d1 (iblk m c 1 t))
    (a2 m c) (a3 m c) (a4 m c) (a5 m c) (a6 m c) (a7 m c) (a8 m c) (a9 m c))
  rw [← cut_slab m H c t d0 d1, Window.fill_cut]
  iexact H10

/-- The library's body obligation, at every point. -/
theorem body_obligation (H : SlabReads) (c : Dev nD) :
    BodyObligationLoose (dats m 0 c) (defs₀ (F := Ideal)) Variants.none () Set.univ := fun t => by
  rw [bigSep_W0, bigSep_W0]
  exact sound_body m H c t

/-! ## The run -/

set_option backward.isDefEq.respectTransparency.types false in
/-- From any memory with zero counters every weakly fair execution of @main terminates, with every array of the
    pipeline at what the proof data compute and every other buffer as the reshape after the region leaves it. -/
theorem run_main (H : SlabReads) : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m H c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The result array after the last write-back -/

/-- What point t writes back is block t of the whole result. -/
theorem flushed_eq (c : Dev nD) (t : Fin cfg0.N) :
    (dats m 0 c).flushed 10 t = ((cfg0.win 10).blk t).view.read (Elt Ideal) (wholeLogits m c) := by
  show (cfg0.win 10).cut (grid0.coords t) ((dats m 0 c).after 10 t) = _
  rw [after0_10]
  exact win0_10.cut_fill _ _ _

/-- An element of the result is in point t's block iff its row is among the block's rows inside the array. -/
theorem mem_blk (t : Fin cfg0.N) (i : S12500x128.Idx) :
    i ∈ ((cfg0.win 10).blk t).view.set ↔ ∀ a : Fin 2, win0_10.index t a * S128x128.size a ≤ (i a).val
      ∧ (i a).val < win0_10.index t a * S128x128.size a + win0_10.xsize (grid0.coords t) a := by
  show i ∈ ((View.whole main_v0).slice (win0_10.rect t)).set ↔ _
  rw [View.set_slice_whole, Rect.mem_set_unit]
  exact Iff.rfl

/-- Row R of the result is written back by point R / 128: the blocks, the last one cut, cover the array. -/
theorem covered (i : S12500x128.Idx) : ∃ t : Fin cfg0.N, (cfg0.win 10).flush t = true ∧ i ∈ ((cfg0.win 10).blk t).view.set := by
  have hi0 : (i 0).val < 12500 := (i 0).isLt
  have hi1 : (i 1).val < 128 := (i 1).isLt
  have hN : cfg0.N = 98 := N_0
  let t : Fin cfg0.N := ⟨(i 0).val / 128, by rw [hN]; omega⟩
  obtain ⟨-, -, -, -, -, c0, c1⟩ := cut_facts t
  obtain ⟨-, -, -, -, -, g0, g1⟩ := grid_facts t
  have htv : t.val = (i 0).val / 128 := rfl
  refine ⟨t, flush0_10 t, ?_⟩
  rw [mem_blk]
  intro a
  match a with
  | ⟨0, _⟩ =>
    show win0_10.index t (0 : Fin 2) * 128 ≤ (i 0).val ∧ (i 0).val < win0_10.index t (0 : Fin 2) * 128 + win0_10.xsize (grid0.coords t) (0 : Fin 2)
    rw [c0, g0]; omega
  | ⟨1, _⟩ =>
    show win0_10.index t (1 : Fin 2) * 128 ≤ (i 1).val ∧ (i 1).val < win0_10.index t (1 : Fin 2) * 128 + win0_10.xsize (grid0.coords t) (1 : Fin 2)
    rw [c1, g1]; omega

/-- So the result array ends holding the whole result. -/
theorem final (c : Dev nD) : (dats m 0 c).arrAt 10 cfg0.N = wholeLogits m c :=
  (dats m 0 c).arrAt_eq_of_cover 10 (wholeLogits m c) (fun t _ => flushed_eq m c t) covered

end Cert.KernelIdeal.Val

end
-- ==== Proof.IdealResult.lean ====
/-
  The idealized kernel's result: the host reshape after the region flattens the (12500, 128) array of logits to the
  (1600000, 1) column, row-major, so element i of the column is the logit at row-major position i = 32 b + n.
-/
import proofs.«405484_j26963804685009_3_alg».proof.Proof.IdealRun
import Idealize.ShloMosaic.Lib.StableHlo.Run

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- The column the program returns: the whole (12500, 128) result, flattened. -/
def resultOf (c : Dev nD) : Vec Ideal S1600000x1 .f32 :=
  shapeCast S1600000x1 (wholeLogits m c) shapeCasts_S12500x128_S1600000x1

/-- After the reshape that follows the region, the result buffer holds that column. -/
theorem tail_result (c : Dev nD) :
    Pipeline.afterTail₀ cfgs (dats m) 0 (V0 m) [hostOps1] c main_v1 = resultOf m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = wholeLogits m c :=
    (Pipeline.withArrays_arr spec0 launch0.win.arr_inj c _ _ 10).trans (final m c)
  rw [e]
  rfl

/-- Element i of the column is the logit of neighbour n of node b, where 32 b + n = i. -/
theorem resultOf_apply (c : Dev nD) (i : S1600000x1.Idx) (b : Fin 50000) (n : Fin 32) (hp : 32 * b.val + n.val = (i 0).val) :
    resultOf m c i = logitOf m c b n := by
  have hi0 : (i 0).val < 1600000 := (i 0).isLt
  have hi1 : (i 1).val < 1 := (i 1).isLt
  unfold resultOf
  refine (shapeCast_apply (wholeLogits m c) shapeCasts_S12500x128_S1600000x1 i
    (ix2 (⟨(i 0).val / 128, by omega⟩ : Fin 12500) (⟨(i 0).val % 128, Nat.mod_lt _ (by decide)⟩ : Fin 128)) ?_).trans ?_
  · rewrite [Shape.rowMajor_val_two, Shape.rowMajor_val_two]
    show (i 0).val / 128 * 128 + (i 0).val % 128 = (i 0).val * 1 + (i 1).val
    omega
  · unfold wholeLogits
    have hb : (⟨(128 * ((i 0).val / 128) + (i 0).val % 128) / 32, by omega⟩ : Fin 50000) = b := Fin.ext (by
      show (128 * ((i 0).val / 128) + (i 0).val % 128) / 32 = b.val; have := n.isLt; omega)
    have hn : (⟨(128 * ((i 0).val / 128) + (i 0).val % 128) % 32, Nat.mod_lt _ (by decide)⟩ : Fin 32) = n := Fin.ext (by
      show (128 * ((i 0).val / 128) + (i 0).val % 128) % 32 = n.val; have := n.isLt; omega)
    show logitOf m c ⟨(128 * ((i 0).val / 128) + (i 0).val % 128) / 32, _⟩ ⟨(128 * ((i 0).val / 128) + (i 0).val % 128) % 32, _⟩ = _
    rw [hb, hn]

/-- The run re-posted: the result buffer at the column, the ten arguments unchanged. -/
theorem run_result (H : SlabReads) : θ_run defs (onTc (τ := τ) (main (F := Ideal))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_v1 (Pipeline.mem_restRefs_of main_v1 (by decide) (by decide))).trans (tail_result m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c))),
      ((h c).1 8).trans ((((dats m) 0 c).arrAt_in 8 rfl _).trans ((A_eq m c 8).trans (V_main_arg8 m c))),
      ((h c).1 9).trans ((((dats m) 0 c).arrAt_in 9 rfl _).trans ((A_eq m c 9).trans (V_main_arg9 m c)))⟩)
    (run_main m ρ H)

end Cert.KernelIdeal.Val

end
-- ==== Proof.PayIdx.lean ====
/-
  The stored slab read at one element, over the extended reals.

  The block's run stores a (128, 128) slab computed from the ten loaded vectors by matrix products, reshapes,
  broadcasts, slices, a rectifier and one sum over the last axis.  Every one of these, read at a single element,
  names one element (or one finite sum of products of elements) of its operands.  Chained from the stored slab
  back to the inputs, element (r, l) is

      sum_k max ((sum_h hn h * Wa1 (h, k) + sum_h hs h * Wa1 (64 + h, k)) + ba1 k) 0 * Wa2 (k, 0) + ba2 0

  with hn, hs the rectified affine hidden units of neighbour row (b, n) and node row b, where 32 * b + n and
  128 * r + l are the same row-major position: the reshapes between (512, 32, ...), (16384, ...) and (128, 128)
  keep row-major positions.  The sums appear in the same grouping as in the specification, so no algebra beyond
  matching term by term is used, and nothing is assumed finite.
-/
import proofs.«405484_j26963804685009_3_alg».proof.Proof.IdealBody
import proofs.«405484_j26963804685009_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayIdx

open Cert.KernelIdeal Cert.KernelIdeal.Gen
open Idealize.ShloMosaic Idealize.ShloMosaic.ValueIdx

/-! ## The four matrix products read at an element

Each product contracts the one axis the two operands share, into a zero accumulator: element (i, j) is the sum over
the shared coordinate q of the left operand at (i, q) times the right operand at (q, j). -/

theorem lhs_nb1_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhs_nb1_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhs_nb1_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhs_nb1_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

/-- The neighbours' first product, (16384, 128) by (128, 64). -/
theorem mm_nb1_apply (A : FVec Ideal S16384x128 .f32) (B : FVec Ideal S128x64 .f32) (p : Fin 16384) (h : Fin 64) :
    matmul dot_S16384x128_S128x64_S16384x64_1_0_0_1_n_n none A B (constant (F := Ideal) S16384x64 .f32 0x00000000#32) (ix2 p h)
      = ∑ f : Fin 128, A (ix2 p f) * B (ix2 f h) := by
  simp only [matmul]
  rw [Ideal.matmul_constant_zero_apply, ← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 p h) ((contrEquiv1 dot_S16384x128_S128x64_S16384x64_1_0_0_1_n_n 128 rfl rfl).symm k) = ix2 p k := funext fun a => Fin.ext (by
    match a with
    | ⟨0, _⟩ => exact lhs_nb1_0 _ _
    | ⟨1, _⟩ => exact (lhs_nb1_1 _ _).trans hk)
  have er : dot_S16384x128_S128x64_S16384x64_1_0_0_1_n_n.rhsIdx (ix2 p h) ((contrEquiv1 dot_S16384x128_S128x64_S16384x64_1_0_0_1_n_n 128 rfl rfl).symm k) = ix2 k h := funext fun a => Fin.ext (by
    match a with
    | ⟨0, _⟩ => exact (rhs_nb1_0 _ _).trans hk
    | ⟨1, _⟩ => exact rhs_nb1_1 _ _)
  rw [el, er]
theorem lhs_sf1_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhs_sf1_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhs_sf1_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhs_sf1_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- The nodes' first product, (512, 128) by (128, 64). -/
theorem mm_sf1_apply (A : FVec Ideal S512x128 .f32) (B : FVec Ideal S128x64 .f32) (p : Fin 512) (h : Fin 64) :
    matmul dot_S512x128_S128x64_S512x64_1_0_0_1_n_n none A B (constant (F := Ideal) S512x64 .f32 0x00000000#32) (ix2 p h)
      = ∑ f : Fin 128, A (ix2 p f) * B (ix2 f h) := by
  simp only [matmul]
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 p h) ((contrEquiv1 dot_S512x128_S128x64_S512x64_1_0_0_1_n_n 128 rfl rfl).symm k) = ix2 p k := funext fun a => Fin.ext (by
    match a with
    | ⟨0, _⟩ => exact lhs_sf1_0 _ _
    | ⟨1, _⟩ => exact (lhs_sf1_1 _ _).trans hk)
  have er : dot_S512x128_S128x64_S512x64_1_0_0_1_n_n.rhsIdx (ix2 p h) ((contrEquiv1 dot_S512x128_S128x64_S512x64_1_0_0_1_n_n 128 rfl rfl).symm k) = ix2 k h := funext fun a => Fin.ext (by
    match a with
    | ⟨0, _⟩ => exact (rhs_sf1_0 _ _).trans hk
    | ⟨1, _⟩ => exact rhs_sf1_1 _ _)
  rw [el, er]
theorem lhs_nb2_0 (i : S16384x16.Idx) (q : dot_S16384x64_S64x16_S16384x16_1_0_0_1_n_n.contr.Idx) :
    (dot_S16384x64_S64x16_S16384x16_1_0_0_1_n_n.lhsIdx i q 0).val = (i 0).val := by
  unfold DotDims.lhsIdx
  rw [dif_neg (show ¬(0 : Fin S16384x64.rank) ∈ dot_S16384x64_S64x16_S16384x16_1_0_0_1_n_n.lhsBatch by decide), dif_pos (show (0 : Fin S16384x64.rank) ∈ dot_S16384x64_S64x16_S16384x16_1_0_0_1_n_n.lhsNonContracting by decide)]
  rfl
theorem lhs_nb2_1 (i : S16384x16.Idx) (q : dot_S16384x64_S64x16_S16384x16_1_0_0_1_n_n.contr.Idx) :
    (dot_S16384x64_S64x16_S16384x16_1_0_0_1_n_n.lhsIdx i q 1).val = (q ⟨0, by decide⟩).val :=
  dot_S16384x64_S64x16_S16384x16_1_0_0_1_n_n.lhsIdx_val_of_single rfl i q
theorem rhs_nb2_0 (i : S16384x16.Idx) (q : dot_S16384x64_S64x16_S16384x16_1_0_0_1_n_n.contr.Idx) :
    (dot_S16384x64_S64x16_S16384x16_1_0_0_1_n_n.rhsIdx i q 0).val = (q ⟨0, by decide⟩).val :=
  dot_S16384x64_S64x16_S16384x16_1_0_0_1_n_n.rhsIdx_val_of_single rfl i q
theorem rhs_nb2_1 (i : S16384x16.Idx) (q : dot_S16384x64_S64x16_S16384x16_1_0_0_1_n_n.contr.Idx) :
    (dot_S16384x64_S64x16_S16384x16_1_0_0_1_n_n.rhsIdx i q 1).val = (i 1).val := by
  unfold DotDims.rhsIdx
  rw [dif_neg (show ¬(1 : Fin S64x16.rank) ∈ dot_S16384x64_S64x16_S16384x16_1_0_0_1_n_n.rhsBatch by decide), dif_pos (show (1 : Fin S64x16.rank) ∈ dot_S16384x64_S64x16_S16384x16_1_0_0_1_n_n.rhsNonContracting by decide)]
  rfl

/-- The neighbours' second product, (16384, 64) by (64, 16). -/
theorem mm_nb2_apply (A : FVec Ideal S16384x64 .f32) (B : FVec Ideal S64x16 .f32) (p : Fin 16384) (h : Fin 16) :
    matmul dot_S16384x64_S64x16_S16384x16_1_0_0_1_n_n none A B (constant (F := Ideal) S16384x16 .f32 0x00000000#32) (ix2 p h)
      = ∑ f : Fin 64, A (ix2 p f) * B (ix2 f h) := by
  simp only [matmul]
  rw [Ideal.matmul_constant_zero_apply, ← Equiv.sum_comp (contrEquiv1 dot_S16384x64_S64x16_S16384x16_1_0_0_1_n_n 64 rfl rfl).symm]
  refine Finset.sum_congr rfl fun k _ => ?_
  have hk := contrEquiv1_symm_val dot_S16384x64_S64x16_S16384x16_1_0_0_1_n_n 64 rfl rfl k
  have el : dot_S16384x64_S64x16_S16384x16_1_0_0_1_n_n.lhsIdx (ix2 p h) ((contrEquiv1 dot_S16384x64_S64x16_S16384x16_1_0_0_1_n_n 64 rfl rfl).symm k) = ix2 p k := funext fun a => Fin.ext (by
    match a with
    | ⟨0, _⟩ => exact lhs_nb2_0 _ _
    | ⟨1, _⟩ => exact (lhs_nb2_1 _ _).trans hk)
  have er : dot_S16384x64_S64x16_S16384x16_1_0_0_1_n_n.rhsIdx (ix2 p h) ((contrEquiv1 dot_S16384x64_S64x16_S16384x16_1_0_0_1_n_n 64 rfl rfl).symm k) = ix2 k h := funext fun a => Fin.ext (by
    match a with
    | ⟨0, _⟩ => exact (rhs_nb2_0 _ _).trans hk
    | ⟨1, _⟩ => exact rhs_nb2_1 _ _)
  rw [el, er]
theorem lhs_sf2_0 (i : S512x16.Idx) (q : dot_S512x64_S64x16_S512x16_1_0_0_1_n_n.contr.Idx) :
    (dot_S512x64_S64x16_S512x16_1_0_0_1_n_n.lhsIdx i q 0).val = (i 0).val := by
  unfold DotDims.lhsIdx
  rw [dif_neg (show ¬(0 : Fin S512x64.rank) ∈ dot_S512x64_S64x16_S512x16_1_0_0_1_n_n.lhsBatch by decide), dif_pos (show (0 : Fin S512x64.rank) ∈ dot_S512x64_S64x16_S512x16_1_0_0_1_n_n.lhsNonContracting by decide)]
  rfl
theorem lhs_sf2_1 (i : S512x16.Idx) (q : dot_S512x64_S64x16_S512x16_1_0_0_1_n_n.contr.Idx) :
    (dot_S512x64_S64x16_S512x16_1_0_0_1_n_n.lhsIdx i q 1).val = (q ⟨0, by decide⟩).val :=
  dot_S512x64_S64x16_S512x16_1_0_0_1_n_n.lhsIdx_val_of_single rfl i q
theorem rhs_sf2_0 (i : S512x16.Idx) (q : dot_S512x64_S64x16_S512x16_1_0_0_1_n_n.contr.Idx) :
    (dot_S512x64_S64x16_S512x16_1_0_0_1_n_n.rhsIdx i q 0).val = (q ⟨0, by decide⟩).val :=
  dot_S512x64_S64x16_S512x16_1_0_0_1_n_n.rhsIdx_val_of_single rfl i q
theorem rhs_sf2_1 (i : S512x16.Idx) (q : dot_S512x64_S64x16_S512x16_1_0_0_1_n_n.contr.Idx) :
    (dot_S512x64_S64x16_S512x16_1_0_0_1_n_n.rhsIdx i q 1).val = (i 1).val := by
  unfold DotDims.rhsIdx
  rw [dif_neg (show ¬(1 : Fin S64x16.rank) ∈ dot_S512x64_S64x16_S512x16_1_0_0_1_n_n.rhsBatch by decide), dif_pos (show (1 : Fin S64x16.rank) ∈ dot_S512x64_S64x16_S512x16_1_0_0_1_n_n.rhsNonContracting by decide)]
  rfl

/-- The nodes' second product, (512, 64) by (64, 16). -/
theorem mm_sf2_apply (A : FVec Ideal S512x64 .f32) (B : FVec Ideal S64x16 .f32) (p : Fin 512) (h : Fin 16) :
    matmul dot_S512x64_S64x16_S512x16_1_0_0_1_n_n none A B (constant (F := Ideal) S512x16 .f32 0x00000000#32) (ix2 p h)
      = ∑ f : Fin 64, A (ix2 p f) * B (ix2 f h) := by
  simp only [matmul]
  rw [Ideal.matmul_constant_zero_apply, ← Equiv.sum_comp (contrEquiv1 dot_S512x64_S64x16_S512x16_1_0_0_1_n_n 64 rfl rfl).symm]
  refine Finset.sum_congr rfl fun k _ => ?_
  have hk := contrEquiv1_symm_val dot_S512x64_S64x16_S512x16_1_0_0_1_n_n 64 rfl rfl k
  have el : dot_S512x64_S64x16_S512x16_1_0_0_1_n_n.lhsIdx (ix2 p h) ((contrEquiv1 dot_S512x64_S64x16_S512x16_1_0_0_1_n_n 64 rfl rfl).symm k) = ix2 p k := funext fun a => Fin.ext (by
    match a with
    | ⟨0, _⟩ => exact lhs_sf2_0 _ _
    | ⟨1, _⟩ => exact (lhs_sf2_1 _ _).trans hk)
  have er : dot_S512x64_S64x16_S512x16_1_0_0_1_n_n.rhsIdx (ix2 p h) ((contrEquiv1 dot_S512x64_S64x16_S512x16_1_0_0_1_n_n 64 rfl rfl).symm k) = ix2 k h := funext fun a => Fin.ext (by
    match a with
    | ⟨0, _⟩ => exact (rhs_sf2_0 _ _).trans hk
    | ⟨1, _⟩ => exact rhs_sf2_1 _ _)
  rw [el, er]

/-! ## The layout operations read at an element

Row (b, n) of a (512, 32, ...) block and row p of the flattened (16384, ...) matrix are the same row when
p = 32 * b + n: a reshape keeps the row-major position. The other reshapes add or drop axes of extent one, the
broadcasts repeat a row along new axes, and the two slices of Wa1 are its upper and lower 64 rows. -/

variable {α : Type}

/-- The (512, 32, 128) feature block flattened to (16384, 128): row 32 * b + n is row (b, n). -/
theorem flat_x0_apply (x : (⟨3, ![512, 32, 128]⟩ : Shape).Idx → α) (h : S512x32x128.ShapeCasts S16384x128)
    (p : Fin 16384) (b : Fin 512) (n : Fin 32) (f : Fin 128) (hp : p.val = 32 * b.val + n.val) :
    shapeCast S16384x128 x h (ix2 p f) = x (ix3 b n f) :=
  shapeCast_apply x h _ _ (by
    rw [Shape.rowMajor_val_three, Shape.rowMajor_val_two]
    show (b.val * 32 + n.val) * 128 + f.val = p.val * 128 + f.val
    omega)

/-- The (16384, 16) product unflattened to (512, 32, 16): row (b, n) is row 32 * b + n. -/
theorem unflat16_apply (x : (⟨2, ![16384, 16]⟩ : Shape).Idx → α) (h : S16384x16.ShapeCasts S512x32x16)
    (p : Fin 16384) (b : Fin 512) (n : Fin 32) (k : Fin 16) (hp : p.val = 32 * b.val + n.val) :
    shapeCast S512x32x16 x h (ix3 b n k) = x (ix2 p k) :=
  shapeCast_apply x h _ _ (by
    rw [Shape.rowMajor_val_three, Shape.rowMajor_val_two]
    show p.val * 16 + k.val = (b.val * 32 + n.val) * 16 + k.val
    omega)

/-- The (512, 32) logits laid out lane-dense as (128, 128): position 128 * r + l is position 32 * b + n. -/
theorem dense_apply (x : (⟨2, ![512, 32]⟩ : Shape).Idx → α) (h : S512x32.ShapeCasts S128x128)
    (r l : Fin 128) (b : Fin 512) (n : Fin 32) (hp : 32 * b.val + n.val = 128 * r.val + l.val) :
    shapeCast S128x128 x h (ix2 r l) = x (ix2 b n) :=
  shapeCast_apply x h _ _ (by
    rw [Shape.rowMajor_val_two, Shape.rowMajor_val_two]
    show b.val * 32 + n.val = r.val * 128 + l.val
    omega)

/-- A (512, 16) matrix given a middle unit axis. -/
theorem mid_unit_apply (x : (⟨2, ![512, 16]⟩ : Shape).Idx → α) (h : S512x16.ShapeCasts S512x1x16)
    (b : Fin 512) (u : Fin 1) (k : Fin 16) : shapeCast S512x1x16 x h (ix3 b u k) = x (ix2 b k) :=
  shapeCast_apply x h _ _ (by
    have hu : u.val = 0 := by omega
    rw [Shape.rowMajor_val_three, Shape.rowMajor_val_two]
    show b.val * 16 + k.val = (b.val * 1 + u.val) * 16 + k.val
    rw [hu, Nat.mul_one, Nat.add_zero])

/-- The middle unit axis repeated 32 times. -/
theorem rep_mid_apply (x : (⟨3, ![512, 1, 16]⟩ : Shape).Idx → α) (h : S512x1x16.Broadcasts S512x32x16)
    (b : Fin 512) (n : Fin 32) (k : Fin 16) : broadcastTo S512x32x16 x h (ix3 b n k) = x (ix3 b (0 : Fin 1) k) := by
  refine broadcastTo_apply x h (ix3 b n k) (ix3 b (0 : Fin 1) k) fun ax => ?_
  match ax with
  | ⟨0, _⟩ => show b.val = if (512 : Nat) = 1 then 0 else b.val; rw [if_neg (by decide)]
  | ⟨1, _⟩ => rfl
  | ⟨2, _⟩ => show k.val = if (16 : Nat) = 1 then 0 else k.val; rw [if_neg (by decide)]

/-- A 16-vector given two leading unit axes. -/
theorem lead_units_apply (x : (⟨1, ![16]⟩ : Shape).Idx → α) (h : S16.ShapeCasts S1x1x16)
    (u v : Fin 1) (k : Fin 16) : shapeCast S1x1x16 x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * 16 + k.val
    omega)

/-- A (1, 1, 16) row repeated over all 512 * 32 rows. -/
theorem rep_row_apply (x : (⟨3, ![1, 1, 16]⟩ : Shape).Idx → α) (h : S1x1x16.Broadcasts S512x32x16)
    (b : Fin 512) (n : Fin 32) (k : Fin 16) :
    broadcastTo S512x32x16 x h (ix3 b n k) = x (ix3 (0 : Fin 1) (0 : Fin 1) k) := by
  refine broadcastTo_apply x h (ix3 b n k) (ix3 (0 : Fin 1) (0 : Fin 1) k) fun ax => ?_
  match ax with
  | ⟨0, _⟩ => rfl
  | ⟨1, _⟩ => rfl
  | ⟨2, _⟩ => show k.val = if (16 : Nat) = 1 then 0 else k.val; rw [if_neg (by decide)]

/-- The (16, 1) column read as a 16-vector. -/
theorem col_apply (x : (⟨2, ![16, 1]⟩ : Shape).Idx → α) (h : S16x1.ShapeCasts S16) (k : Fin 16) :
    shapeCast S16 x h (ix1 k) = x (ix2 k (0 : Fin 1)) :=
  shapeCast_apply x h _ _ (by
    rw [Shape.rowMajor_val_two, Shape.rowMajor_val_one]
    show k.val * 1 + 0 = k.val
    rw [Nat.mul_one, Nat.add_zero])

/-- The upper 64 rows of Wa1. -/
theorem upper_apply (x : (⟨2, ![128, 16]⟩ : Shape).Idx → α) (h : S128x16.Slices ![0, 0] S64x16) (i : Fin 64) (k : Fin 16) :
    extractStridedSlice S64x16 ![0, 0] x h (ix2 i k) = x (ix2 (Cert.Spec.top i) k) :=
  slice2_axis0_apply 0 x h i k (Cert.Spec.top i) (Nat.zero_add _).symm

/-- The lower 64 rows of Wa1. -/
theorem lower_apply (x : (⟨2, ![128, 16]⟩ : Shape).Idx → α) (h : S128x16.Slices ![64, 0] S64x16) (i : Fin 64) (k : Fin 16) :
    extractStridedSlice S64x16 ![64, 0] x h (ix2 i k) = x (ix2 (Cert.Spec.bot i) k) :=
  slice2_axis0_apply 64 x h i k (Cert.Spec.bot i) rfl

/-- The one element of a 1-vector. -/
theorem only_apply (x : (⟨1, ![1]⟩ : Shape).Idx → α) (h : ∀ a, (![0] : Fin 1 → Nat) a < S1.size a) :
    extractAt ![0] x h = x (ix1 (0 : Fin 1)) := by
  unfold extractAt
  exact congrArg x (funext fun a => match a with | ⟨0, _⟩ => rfl)

/-- The sum over the last axis of a (512, 32, 16) array, at (b, n): the sum over k of the elements (b, n, k). -/
theorem lane_sum_apply (src : FVec Ideal S512x32x16 .f32) (h : S512x32x16.Reduces [2] S512x32) (hφ : FKind.Formats .f32)
    (hacc : (0x00000000#32 : BitVec 32) = FKind.add.neutral .f32 hφ) (b : Fin 512) (n : Fin 32) :
    multiReduction (F := Ideal) .add [2] S512x32 src 0x00000000#32 h hφ hacc (ix2 b n) = ∑ k : Fin 16, src (ix3 b n k) := by
  refine (Ideal.multiReduction_add_single (a := 2) src _ h hφ hacc (ix2 b n)).trans ?_
  refine Finset.sum_congr rfl fun k _ => congrArg src (funext fun a => Fin.ext ?_)
  match a with
  | ⟨0, _⟩ => rfl
  | ⟨1, _⟩ => rfl
  | ⟨2, _⟩ => rfl

/-! ## The two hidden layers and the attention pre-activation -/

/-- The neighbours' hidden layer as the block computes it: all 16384 rows at once. -/
def hidNb (x0 : FVec Ideal S512x32x128 .f32) (x2 : FVec Ideal S128x64 .f32) (x3 : FVec Ideal S64 .f32) : FVec Ideal S16384x64 .f32 :=
  maximumf
    (addf
      (matmul dot_S16384x128_S128x64_S16384x64_1_0_0_1_n_n none (shapeCast S16384x128 x0 shapeCasts_S512x32x128_S16384x128) x2
        (constant S16384x64 .f32 0x00000000#32))
      (broadcastTo S16384x64 (shapeCast S1x64 x3 shapeCasts_S64_S1x64) broadcasts_S1x64_S16384x64))
    (broadcast S16384x64 (Scalar.ofBits .f32 0x00000000#32))

/-- The nodes' hidden layer as the block computes it: all 512 rows at once. -/
def hidSf (x1 : FVec Ideal S512x128 .f32) (x4 : FVec Ideal S128x64 .f32) (x5 : FVec Ideal S64 .f32) : FVec Ideal S512x64 .f32 :=
  maximumf
    (addf
      (matmul dot_S512x128_S128x64_S512x64_1_0_0_1_n_n none x1 x4 (constant S512x64 .f32 0x00000000#32))
      (broadcastTo S512x64 (shapeCast S1x64 x5 shapeCasts_S64_S1x64) broadcasts_S1x64_S512x64))
    (broadcast S512x64 (Scalar.ofBits .f32 0x00000000#32))

/-- Row 32 * b + n of the neighbours' hidden layer is the hidden units of neighbour row (b, n). -/
theorem hidNb_apply (x0 : FVec Ideal S512x32x128 .f32) (x2 : FVec Ideal S128x64 .f32) (x3 : FVec Ideal S64 .f32)
    (p : Fin 16384) (b : Fin 512) (n : Fin 32) (h : Fin 64) (hp : p.val = 32 * b.val + n.val) :
    hidNb x0 x2 x3 (ix2 p h) = Cert.Spec.hid x2 x3 (Cert.Spec.nbRow x0 b n) h := by
  unfold hidNb Cert.Spec.hid
  rw [maximumf_apply, addf_apply, mm_nb1_apply, broadcastTo_1b_ab_apply, shapeCast_a_1a_apply]
  refine congrArg₂ max (congrArg (· + x3 (ix1 h)) (Finset.sum_congr rfl fun f _ => ?_)) rfl
  exact congrArg (· * x2 (ix2 f h)) (flat_x0_apply x0 _ p b n f hp)

/-- Row b of the nodes' hidden layer is the hidden units of node row b. -/
theorem hidSf_apply (x1 : FVec Ideal S512x128 .f32) (x4 : FVec Ideal S128x64 .f32) (x5 : FVec Ideal S64 .f32)
    (b : Fin 512) (h : Fin 64) :
    hidSf x1 x4 x5 (ix2 b h) = Cert.Spec.hid x4 x5 (Cert.Spec.selfRow x1 b) h := by
  unfold hidSf Cert.Spec.hid
  rw [maximumf_apply, addf_apply, mm_sf1_apply, broadcastTo_1b_ab_apply, shapeCast_a_1a_apply]
  rfl

/-- The attention pre-activation the block computes, over the two hidden layers: the neighbours' layer through the
    upper half of Wa1, unflattened, plus the nodes' layer through the lower half, repeated over the 32 neighbours,
    plus the bias. -/
theorem pay2_eq (x0 : FVec Ideal S512x32x128 .f32) (x1 : FVec Ideal S512x128 .f32) (x2 : FVec Ideal S128x64 .f32)
    (x3 : FVec Ideal S64 .f32) (x4 : FVec Ideal S128x64 .f32) (x5 : FVec Ideal S64 .f32) (x6 : FVec Ideal S128x16 .f32)
    (x7 : FVec Ideal S16 .f32) :
    k0_pay2 (F := Ideal) x0 x1 x2 x3 x4 x5 x6 x7 =
      addf
        (addf
          (shapeCast S512x32x16
            (matmul dot_S16384x64_S64x16_S16384x16_1_0_0_1_n_n none (hidNb x0 x2 x3)
              (extractStridedSlice S64x16 ![0, 0] x6 slices_S128x16_o0_0_S64x16) (constant S16384x16 .f32 0x00000000#32))
            shapeCasts_S16384x16_S512x32x16)
          (broadcastTo S512x32x16
            (shapeCast S512x1x16
              (matmul dot_S512x64_S64x16_S512x16_1_0_0_1_n_n none (hidSf x1 x4 x5)
                (extractStridedSlice S64x16 ![64, 0] x6 slices_S128x16_o64_0_S64x16) (constant S512x16 .f32 0x00000000#32))
              shapeCasts_S512x16_S512x1x16)
            broadcasts_S512x1x16_S512x32x16))
        (broadcastTo S512x32x16 (shapeCast S1x1x16 x7 shapeCasts_S16_S1x1x16) broadcasts_S1x1x16_S512x32x16) := rfl

/-- Element (b, n, k) of the attention pre-activation: unit k's affine form of the two rows' hidden units. -/
theorem pay2_apply (x0 : FVec Ideal S512x32x128 .f32) (x1 : FVec Ideal S512x128 .f32) (x2 : FVec Ideal S128x64 .f32)
    (x3 : FVec Ideal S64 .f32) (x4 : FVec Ideal S128x64 .f32) (x5 : FVec Ideal S64 .f32) (x6 : FVec Ideal S128x16 .f32)
    (x7 : FVec Ideal S16 .f32) (b : Fin 512) (n : Fin 32) (k : Fin 16) :
    k0_pay2 (F := Ideal) x0 x1 x2 x3 x4 x5 x6 x7 (ix3 b n k)
      = ((∑ h : Fin 64, Cert.Spec.hid x2 x3 (Cert.Spec.nbRow x0 b n) h * x6 (ix2 (Cert.Spec.top h) k))
          + (∑ h : Fin 64, Cert.Spec.hid x4 x5 (Cert.Spec.selfRow x1 b) h * x6 (ix2 (Cert.Spec.bot h) k)))
        + x7 (ix1 k) := by
  have hb := b.isLt
  have hn := n.isLt
  rw [pay2_eq, addf_apply, addf_apply,
    unflat16_apply _ _ (⟨32 * b.val + n.val, by omega⟩ : Fin 16384) b n k rfl, mm_nb2_apply,
    rep_mid_apply, mid_unit_apply, mm_sf2_apply, rep_row_apply, lead_units_apply]
  refine congrArg₂ (· + ·) (congrArg₂ (· + ·) (Finset.sum_congr rfl fun h _ => ?_) (Finset.sum_congr rfl fun h _ => ?_)) rfl
  · rw [hidNb_apply x0 x2 x3 _ b n h rfl, upper_apply]
  · rw [hidSf_apply, lower_apply]

/-! ## The projection and the lane-dense layout -/

/-- The stored slab over the attention pre-activation v and the rectifier's zero z. -/
theorem pay1_eq (x8 : FVec Ideal S16x1 .f32) (x9 : FVec Ideal S1 .f32) (v z : FVec Ideal S512x32x16 .f32) :
    k0_pay1 (F := Ideal) x8 x9 v z =
      shapeCast S128x128
        (addf
          (multiReduction (F := Ideal) .add [2] S512x32
            (mulf (maximumf v z)
              (broadcastTo S512x32x16 (shapeCast S1x1x16 (shapeCast S16 x8 shapeCasts_S16x1_S16) shapeCasts_S16_S1x1x16)
                broadcasts_S1x1x16_S512x32x16))
            0x00000000#32 reduces_S512x32x16_S512x32 (.inl rfl) rfl)
          (broadcast S512x32 (extractAt ![0] x9 inpos_S1_p0)))
        shapeCasts_S512x32_S128x128 := rfl

/-- Element (r, l) of the stored slab: the rectified attention units of row (b, n) through Wa2, plus the bias. -/
theorem pay1_apply (x8 : FVec Ideal S16x1 .f32) (x9 : FVec Ideal S1 .f32) (v z : FVec Ideal S512x32x16 .f32)
    (r l : Fin 128) (b : Fin 512) (n : Fin 32) (hp : 32 * b.val + n.val = 128 * r.val + l.val) :
    k0_pay1 (F := Ideal) x8 x9 v z (ix2 r l)
      = (∑ k : Fin 16, max (v (ix3 b n k)) (z (ix3 b n k)) * x8 (ix2 k (0 : Fin 1))) + x9 (ix1 (0 : Fin 1)) := by
  rw [pay1_eq, dense_apply _ _ r l b n hp, addf_apply]
  refine congrArg₂ (· + ·) ((lane_sum_apply _ _ _ _ b n).trans (Finset.sum_congr rfl fun k _ => ?_))
    ((broadcast_apply _ _).trans (only_apply x9 _))
  rw [mulf_apply, maximumf_apply, rep_row_apply, lead_units_apply, col_apply]

/-- The rectifier's zero, at every element: the zero word, unevaluated. -/
theorem pay3_apply (j : S512x32x16.Idx) : k0_pay3 (F := Ideal) j = Cert.Spec.z0 := rfl

/-- Element (r, l) of the slab a block's run stores is the logit of the block's row (b, n), where
    32 * b + n = 128 * r + l is the common row-major position: the (512, 32) logits are laid out lane-dense. -/
theorem slab_apply (x0 : Vec Ideal S512x32x128 .f32) (x1 : Vec Ideal S512x128 .f32) (x2 : Vec Ideal S128x64 .f32) (x3 : Vec Ideal S64 .f32)
    (x4 : Vec Ideal S128x64 .f32) (x5 : Vec Ideal S64 .f32) (x6 : Vec Ideal S128x16 .f32) (x7 : Vec Ideal S16 .f32)
    (x8 : Vec Ideal S16x1 .f32) (x9 : Vec Ideal S1 .f32) (r l : Fin 128) (b : Fin 512) (n : Fin 32)
    (hp : 32 * b.val + n.val = 128 * r.val + l.val) :
    Body.slab (F := Ideal) x0 x1 x2 x3 x4 x5 x6 x7 x8 x9 (ix2 r l) = Cert.Spec.logit x2 x3 x4 x5 x6 x7 x8 x9 x0 x1 b n := by
  unfold Body.slab Cert.Spec.logit Cert.Spec.outRow Cert.Spec.att
  refine (pay1_apply x8 x9 _ _ r l b n hp).trans ?_
  refine congrArg (· + x9 (ix1 (0 : Fin 1))) (Finset.sum_congr rfl fun k _ => ?_)
  rw [pay2_apply, pay3_apply]

end Cert.KernelIdeal.PayIdx

end
-- ==== Proof.RefSpec.lean ====
/-
  The reference's result read at one element, over the extended reals.

  The reference evaluates the two-layer attention logit for all 50000 * 32 (node, neighbour) rows at once, as
  whole-array operations: three contractions with a (128, 64), a (64, 16) and a (16, 1) weight for the neighbour
  branch, two for the node branch, biases broadcast along the leading axes, a rectifier after each affine layer, and
  a final row-major flattening of the (50000, 32, 1) logits into a (1600000, 1) column.  Read at one element, each
  whole-array operation is the scalar operation on the operands' elements, each contraction a finite sum over the
  contracted coordinate, each broadcast or slice a re-indexing.  The lemmas below read the operations bottom-up at an
  index given by its coordinates (b, n, h) / (b, h) / (b, n, k) / (b, k), and name what they find by the functions of
  the specification: hidden units, attention units, the logit.  No arithmetic law is used: both sides are the same
  sums and products in the same grouping, and the rectifier's zero is the same word on both sides.
-/
import proofs.«405484_j26963804685009_3_alg».proof.Proof.Gen.ReferenceIdeal.Read
import proofs.«405484_j26963804685009_3_alg».proof.Proof.Spec
import Idealize.ShloMosaic.Lib.ValueIdx
import Idealize.ShloMosaic.PureOps.Ideal.Laws

set_option maxRecDepth 16384

noncomputable section

namespace Cert.ReferenceIdeal.RefSpec

open Cert.ReferenceIdeal Cert.ReferenceIdeal.Gen Cert.ReferenceIdeal.Read
open Idealize.ShloMosaic Idealize.ShloMosaic.ValueIdx

variable (x0 : (⟨S50000x32x128, .f32⟩ : BufTy).Contents (Elt Ideal)) (x1 : (⟨S50000x128, .f32⟩ : BufTy).Contents (Elt Ideal))
  (x2 : (⟨S128x64, .f32⟩ : BufTy).Contents (Elt Ideal)) (x3 : (⟨S64, .f32⟩ : BufTy).Contents (Elt Ideal))
  (x4 : (⟨S128x64, .f32⟩ : BufTy).Contents (Elt Ideal)) (x5 : (⟨S64, .f32⟩ : BufTy).Contents (Elt Ideal))
  (x6 : (⟨S128x16, .f32⟩ : BufTy).Contents (Elt Ideal)) (x7 : (⟨S16, .f32⟩ : BufTy).Contents (Elt Ideal))
  (x8 : (⟨S16x1, .f32⟩ : BufTy).Contents (Elt Ideal)) (x9 : (⟨S1, .f32⟩ : BufTy).Contents (Elt Ideal))

/-! ## The neighbour branch's first layer -/

/-- The first contraction at (b, n, h): row (b, n) of the neighbour features against column h of the weight. -/
theorem v0_at (b : Fin 50000) (n : Fin 32) (h : Fin 64) :
    val_main_v0 (F := Ideal) x0 x2 (ix3 b n h) = ∑ f : Fin 128, x0 (ix3 b n f) * x2 (ix2 f h) := by
  refine (val_main_v0_apply x0 x2 (ix3 b n h)).trans ?_
  refine Finset.sum_congr rfl fun f _ => ?_
  have el : lidx_main_v0 (ix3 b n h) f = ix3 b n f := funext fun a => Fin.ext (by
    match a with
    | ⟨0, _⟩ => rfl
    | ⟨1, _⟩ => rfl
    | ⟨2, _⟩ => rfl)
  have er : ridx_main_v0 (ix3 b n h) f = ix2 f h := funext fun a => Fin.ext (by
    match a with
    | ⟨0, _⟩ => rfl
    | ⟨1, _⟩ => rfl)
  rw [el, er]

/-- The neighbour bias, broadcast over nodes and neighbours, at (b, n, h) is its entry h. -/
theorem v2_at (b : Fin 50000) (n : Fin 32) (h : Fin 64) :
    val_main_v2 (F := Ideal) x3 (ix3 b n h) = x3 (ix1 h) := by
  refine (val_main_v2_apply x3 _).trans ?_
  refine (val_main_v1_apply x3 _).trans ?_
  exact congrArg x3 (funext fun a => Fin.ext (by
    match a with
    | ⟨0, _⟩ => rfl))

/-- The rectifier's zero, broadcast over the (50000, 32, 64) array, is the zero word everywhere. -/
theorem zero0_at (i : S50000x32x64.Idx) : val_main_call0_v0 (F := Ideal) i = Cert.Spec.z0 :=
  (val_main_call0_v0_apply i).trans rfl

/-- The rectified first layer of the neighbour branch at (b, n, h) is hidden unit h of neighbour row (b, n). -/
theorem v4_at (b : Fin 50000) (n : Fin 32) (h : Fin 64) :
    val_main_v4 (F := Ideal) x0 x2 x3 (ix3 b n h) = Cert.Spec.hid x2 x3 (Cert.Spec.nbRow x0 b n) h := by
  show max (val_main_v0 (F := Ideal) x0 x2 (ix3 b n h) + val_main_v2 (F := Ideal) x3 (ix3 b n h))
      (val_main_call0_v0 (F := Ideal) (ix3 b n h)) = _
  rw [v0_at, v2_at, zero0_at]
  rfl

/-! ## The node branch's first layer -/

/-- The node branch's first contraction at (b, h): node row b against column h of the weight. -/
theorem v5_at (b : Fin 50000) (h : Fin 64) :
    val_main_v5 (F := Ideal) x1 x4 (ix2 b h) = ∑ f : Fin 128, x1 (ix2 b f) * x4 (ix2 f h) := by
  refine (val_main_v5_apply x1 x4 (ix2 b h)).trans ?_
  refine Finset.sum_congr rfl fun f _ => ?_
  have el : lidx_main_v5 (ix2 b h) f = ix2 b f := funext fun a => Fin.ext (by
    match a with
    | ⟨0, _⟩ => rfl
    | ⟨1, _⟩ => rfl)
  have er : ridx_main_v5 (ix2 b h) f = ix2 f h := funext fun a => Fin.ext (by
    match a with
    | ⟨0, _⟩ => rfl
    | ⟨1, _⟩ => rfl)
  rw [el, er]

/-- The node bias, broadcast over nodes, at (b, h) is its entry h. -/
theorem v7_at (b : Fin 50000) (h : Fin 64) :
    val_main_v7 (F := Ideal) x5 (ix2 b h) = x5 (ix1 h) := by
  refine (val_main_v7_apply x5 _).trans ?_
  refine (val_main_v6_apply x5 _).trans ?_
  exact congrArg x5 (funext fun a => Fin.ext (by
    match a with
    | ⟨0, _⟩ => rfl))

/-- The rectifier's zero, broadcast over the (50000, 64) array, is the zero word everywhere. -/
theorem zero1_at (i : S50000x64.Idx) : val_main_call1_v0 (F := Ideal) i = Cert.Spec.z0 :=
  (val_main_call1_v0_apply i).trans rfl

/-- The rectified first layer of the node branch at (b, h) is hidden unit h of node row b. -/
theorem v9_at (b : Fin 50000) (h : Fin 64) :
    val_main_v9 (F := Ideal) x1 x4 x5 (ix2 b h) = Cert.Spec.hid x4 x5 (Cert.Spec.selfRow x1 b) h := by
  show max (val_main_v5 (F := Ideal) x1 x4 (ix2 b h) + val_main_v7 (F := Ideal) x5 (ix2 b h))
      (val_main_call1_v0 (F := Ideal) (ix2 b h)) = _
  rw [v5_at, v7_at, zero1_at]
  rfl

/-! ## The second layer: the two halves of the (128, 16) weight -/

/-- The upper half of the second weight at (h, k) is its entry (h, k). -/
theorem v10_at (h : Fin 64) (k : Fin 16) :
    val_main_v10 (F := Ideal) x6 (ix2 h k) = x6 (ix2 (Cert.Spec.top h) k) := by
  refine (val_main_v10_apply x6 _).trans ?_
  exact congrArg x6 (funext fun a => Fin.ext (by
    match a with
    | ⟨0, _⟩ => rfl
    | ⟨1, _⟩ => rfl))

/-- The lower half of the second weight at (h, k) is its entry (64 + h, k). -/
theorem v12_at (h : Fin 64) (k : Fin 16) :
    val_main_v12 (F := Ideal) x6 (ix2 h k) = x6 (ix2 (Cert.Spec.bot h) k) := by
  refine (val_main_v12_apply x6 _).trans ?_
  exact congrArg x6 (funext fun a => Fin.ext (by
    match a with
    | ⟨0, _⟩ => rfl
    | ⟨1, _⟩ => rfl))

/-- The neighbour branch's second contraction at (b, n, k): the hidden units of neighbour row (b, n) against
    column k of the upper half. -/
theorem v11_at (b : Fin 50000) (n : Fin 32) (k : Fin 16) :
    val_main_v11 (F := Ideal) x0 x2 x3 x6 (ix3 b n k)
      = ∑ h : Fin 64, Cert.Spec.hid x2 x3 (Cert.Spec.nbRow x0 b n) h * x6 (ix2 (Cert.Spec.top h) k) := by
  refine (val_main_v11_apply x0 x2 x3 x6 (ix3 b n k)).trans ?_
  refine Finset.sum_congr rfl fun h _ => ?_
  have el : lidx_main_v11 (ix3 b n k) h = ix3 b n h := funext fun a => Fin.ext (by
    match a with
    | ⟨0, _⟩ => rfl
    | ⟨1, _⟩ => rfl
    | ⟨2, _⟩ => rfl)
  have er : ridx_main_v11 (ix3 b n k) h = ix2 h k := funext fun a => Fin.ext (by
    match a with
    | ⟨0, _⟩ => rfl
    | ⟨1, _⟩ => rfl)
  rw [el, er, v4_at, v10_at]

/-- The node branch's second contraction at (b, k): the hidden units of node row b against column k of the
    lower half. -/
theorem v13_at (b : Fin 50000) (k : Fin 16) :
    val_main_v13 (F := Ideal) x1 x4 x5 x6 (ix2 b k)
      = ∑ h : Fin 64, Cert.Spec.hid x4 x5 (Cert.Spec.selfRow x1 b) h * x6 (ix2 (Cert.Spec.bot h) k) := by
  refine (val_main_v13_apply x1 x4 x5 x6 (ix2 b k)).trans ?_
  refine Finset.sum_congr rfl fun h _ => ?_
  have el : lidx_main_v13 (ix2 b k) h = ix2 b h := funext fun a => Fin.ext (by
    match a with
    | ⟨0, _⟩ => rfl
    | ⟨1, _⟩ => rfl)
  have er : ridx_main_v13 (ix2 b k) h = ix2 h k := funext fun a => Fin.ext (by
    match a with
    | ⟨0, _⟩ => rfl
    | ⟨1, _⟩ => rfl)
  rw [el, er, v9_at, v12_at]

/-- The node branch's second layer, broadcast over the 32 neighbours, at (b, n, k) is its entry (b, k). -/
theorem v15_at (b : Fin 50000) (n : Fin 32) (k : Fin 16) :
    val_main_v15 (F := Ideal) x1 x4 x5 x6 (ix3 b n k) = val_main_v13 (F := Ideal) x1 x4 x5 x6 (ix2 b k) := by
  refine (val_main_v15_apply x1 x4 x5 x6 _).trans ?_
  refine (val_main_v14_apply x1 x4 x5 x6 _).trans ?_
  exact congrArg (val_main_v13 (F := Ideal) x1 x4 x5 x6) (funext fun a => Fin.ext (by
    match a with
    | ⟨0, _⟩ => rfl
    | ⟨1, _⟩ => rfl))

/-- The second bias, broadcast over nodes and neighbours, at (b, n, k) is its entry k. -/
theorem v18_at (b : Fin 50000) (n : Fin 32) (k : Fin 16) :
    val_main_v18 (F := Ideal) x7 (ix3 b n k) = x7 (ix1 k) := by
  refine (val_main_v18_apply x7 _).trans ?_
  refine (val_main_v17_apply x7 _).trans ?_
  exact congrArg x7 (funext fun a => Fin.ext (by
    match a with
    | ⟨0, _⟩ => rfl))

/-- The rectifier's zero, broadcast over the (50000, 32, 16) array, is the zero word everywhere. -/
theorem zero2_at (i : S50000x32x16.Idx) : val_main_call2_v0 (F := Ideal) i = Cert.Spec.z0 :=
  (val_main_call2_v0_apply i).trans rfl

/-- The rectified second layer at (b, n, k) is attention unit k of the pair (neighbour row (b, n), node row b). -/
theorem v20_at (b : Fin 50000) (n : Fin 32) (k : Fin 16) :
    val_main_v20 (F := Ideal) x0 x1 x2 x3 x4 x5 x6 x7 (ix3 b n k)
      = Cert.Spec.att x2 x3 x4 x5 x6 x7 (Cert.Spec.nbRow x0 b n) (Cert.Spec.selfRow x1 b) k := by
  show max ((val_main_v11 (F := Ideal) x0 x2 x3 x6 (ix3 b n k) + val_main_v15 (F := Ideal) x1 x4 x5 x6 (ix3 b n k))
      + val_main_v18 (F := Ideal) x7 (ix3 b n k)) (val_main_call2_v0 (F := Ideal) (ix3 b n k)) = _
  rw [v11_at, v15_at, v13_at, v18_at, zero2_at]
  rfl

/-! ## The output layer and the flattening -/

/-- The last contraction at (b, n, 0): the attention units against the one column of the last weight. -/
theorem v21_at (b : Fin 50000) (n : Fin 32) :
    val_main_v21 (F := Ideal) x0 x1 x2 x3 x4 x5 x6 x7 x8 (ix3 b n (0 : Fin 1))
      = ∑ k : Fin 16, Cert.Spec.att x2 x3 x4 x5 x6 x7 (Cert.Spec.nbRow x0 b n) (Cert.Spec.selfRow x1 b) k
          * x8 (ix2 k (0 : Fin 1)) := by
  refine (val_main_v21_apply x0 x1 x2 x3 x4 x5 x6 x7 x8 (ix3 b n (0 : Fin 1))).trans ?_
  refine Finset.sum_congr rfl fun k _ => ?_
  have el : lidx_main_v21 (ix3 b n (0 : Fin 1)) k = ix3 b n k := funext fun a => Fin.ext (by
    match a with
    | ⟨0, _⟩ => rfl
    | ⟨1, _⟩ => rfl
    | ⟨2, _⟩ => rfl)
  have er : ridx_main_v21 (ix3 b n (0 : Fin 1)) k = ix2 k (0 : Fin 1) := funext fun a => Fin.ext (by
    match a with
    | ⟨0, _⟩ => rfl
    | ⟨1, _⟩ => rfl)
  rw [el, er, v20_at]

/-- The last bias, broadcast over nodes and neighbours, is its one entry everywhere. -/
theorem v23_at (b : Fin 50000) (n : Fin 32) :
    val_main_v23 (F := Ideal) x9 (ix3 b n (0 : Fin 1)) = x9 (ix1 (0 : Fin 1)) := by
  refine (val_main_v23_apply x9 _).trans ?_
  refine (val_main_v22_apply x9 _).trans ?_
  exact congrArg x9 (funext fun a => Fin.ext (by
    match a with
    | ⟨0, _⟩ => rfl))

/-- The (50000, 32, 1) logits at (b, n, 0): the logit of neighbour n of node b. -/
theorem v24_at (b : Fin 50000) (n : Fin 32) :
    val_main_v24 (F := Ideal) x0 x1 x2 x3 x4 x5 x6 x7 x8 x9 (ix3 b n (0 : Fin 1))
      = Cert.Spec.logit x2 x3 x4 x5 x6 x7 x8 x9 x0 x1 b n := by
  show val_main_v21 (F := Ideal) x0 x1 x2 x3 x4 x5 x6 x7 x8 (ix3 b n (0 : Fin 1))
      + val_main_v23 (F := Ideal) x9 (ix3 b n (0 : Fin 1)) = _
  rw [v21_at, v23_at]
  rfl

/-- Row-major position 32 * b + n of the (1600000, 1) column is position (b, n, 0) of the (50000, 32, 1) array. -/
theorem idx25_eq (i : S1600000x1.Idx) (b : Fin 50000) (n : Fin 32) (hp : 32 * b.val + n.val = (i 0).val) :
    idx_main_v25 i = ix3 b n (0 : Fin 1) := funext fun a => Fin.ext (by
  have h1 : (i 1).val < 1 := (i 1).isLt
  have hn : n.val < 32 := n.isLt
  match a with
  | ⟨0, _⟩ => show ((i 0).val * 1 + (i 1).val) / 32 = b.val; omega
  | ⟨1, _⟩ => show ((i 0).val * 1 + (i 1).val) / 1 % 32 = n.val; omega
  | ⟨2, _⟩ => rfl)

/-- Element i of the reference's (1600000, 1) result is the logit of row (b, n) of the whole arrays, where
    32 * b + n = i: the (50000, 32, 1) logits are flattened row-major. -/
theorem ref_apply (x0 : (⟨S50000x32x128, .f32⟩ : BufTy).Contents (Elt Ideal)) (x1 : (⟨S50000x128, .f32⟩ : BufTy).Contents (Elt Ideal))
    (x2 : (⟨S128x64, .f32⟩ : BufTy).Contents (Elt Ideal)) (x3 : (⟨S64, .f32⟩ : BufTy).Contents (Elt Ideal))
    (x4 : (⟨S128x64, .f32⟩ : BufTy).Contents (Elt Ideal)) (x5 : (⟨S64, .f32⟩ : BufTy).Contents (Elt Ideal))
    (x6 : (⟨S128x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal))
    (i : S1600000x1.Idx) (b : Fin 50000) (n : Fin 32) (hp : 32 * b.val + n.val = (i 0).val) :
    val_main_v25 (F := Ideal) x0 x1 x2 x3 x4 x5 x6 x7 x8 x9 i = Cert.Spec.logit x2 x3 x4 x5 x6 x7 x8 x9 x0 x1 b n := by
  refine (val_main_v25_apply x0 x1 x2 x3 x4 x5 x6 x7 x8 x9 i).trans ?_
  rw [idx25_eq i b n hp]
  exact v24_at x0 x1 x2 x3 x4 x5 x6 x7 x8 x9 b n

end Cert.ReferenceIdeal.RefSpec

end
-- ==== Proof.lean ====
/-
  The certificate of the neighbour-attention kernel against its jnp reference.

  Both programs compute, for each of the 50000 nodes b and each of its 32 neighbours n, the attention logit
      out = sum_k max ((sum_h hn h * Wa1 (h, k) + sum_h hs h * Wa1 (64 + h, k)) + ba1 k) 0 * Wa2 (k, 0) + ba2 0,
  where hn and hs are the rectified affine hidden units of the neighbour's and the node's feature rows
  (Proof/Spec.lean).  The kernel does so 512 nodes at a time over a grid of 98 points, the last of which overhangs
  the arrays; the reference does so in one pass of host operations.  Over the extended reals the two results are
  the same function of the arguments element by element, with no condition on the inputs: both sides form the same
  sums of the same products in the same grouping.

  frame_Kernel        the word-level kernel runs and leaves its arguments alone (Proof/KernelFrame.lean: relational
                      proof data that say nothing of any buffer's contents);
  frame_KernelIdeal   the same of the idealized kernel, read off its value run;
  frame_ReferenceIdeal  the reference's run with the result dropped;
  preserves           the idealization rewrote nothing;
  algebraic           the idealized kernel's result column (Proof/IdealResult.lean) and the reference's
                      (Proof/RefSpec.lean) are both the logit of row (b, n) at row-major position 32 b + n.
-/
import proofs.«405484_j26963804685009_3_alg».proof.Defs
import proofs.«405484_j26963804685009_3_alg».proof.Proof.Gen.Kernel
import proofs.«405484_j26963804685009_3_alg».proof.Proof.Gen.KernelIdeal
import proofs.«405484_j26963804685009_3_alg».proof.Proof.Gen.ReferenceIdeal
import proofs.«405484_j26963804685009_3_alg».proof.Proof.Gen.Pre_finite_inputs
import proofs.«405484_j26963804685009_3_alg».proof.Proof.Gen.ReferenceIdeal.Run
import proofs.«405484_j26963804685009_3_alg».proof.Proof.Gen.ReferenceIdeal.Read
import proofs.«405484_j26963804685009_3_alg».proof.Proof.KernelFrame
import proofs.«405484_j26963804685009_3_alg».proof.Proof.IdealResult
import proofs.«405484_j26963804685009_3_alg».proof.Proof.PayIdx
import proofs.«405484_j26963804685009_3_alg».proof.Proof.RefSpec
import Idealize.ShloMosaic.Adequacy
import Idealize.ShloMosaic.Init

noncomputable section

namespace Cert.Proof

open Idealize.ShloMosaic Idealize.ShloMosaic.TcCoe Idealize.SL.Sem

/-- The stored slab read at an element, as the point lemmas take it. -/
theorem slabReads : Cert.KernelIdeal.Val.SlabReads :=
  fun x0 x1 x2 x3 x4 x5 x6 x7 x8 x9 r l b n hp => Cert.KernelIdeal.PayIdx.slab_apply x0 x1 x2 x3 x4 x5 x6 x7 x8 x9 r l b n hp

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Val.run_result m ρ slabReads)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the ten arguments, the reference's result is the kernel's column: at element i
    both are the logit of row (i / 32, i % 32). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.resultOf m c, Cert.KernelIdeal.Val.run_result m ρ slabReads, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  obtain ⟨g0, g1, g2, g3, g4, g5, g6, g7, g8, g9⟩ := hagree c
  rw [g0, g1, g2, g3, g4, g5, g6, g7, g8, g9]
  funext i
  have hi0 : (i 0).val < 1600000 := (i 0).isLt
  show _ = Cert.KernelIdeal.Val.resultOf m c i
  rw [Cert.ReferenceIdeal.RefSpec.ref_apply _ _ _ _ _ _ _ _ _ _ i ⟨(i 0).val / 32, by omega⟩ ⟨(i 0).val % 32, Nat.mod_lt _ (by decide)⟩
      (by show 32 * ((i 0).val / 32) + (i 0).val % 32 = (i 0).val; omega),
    Cert.KernelIdeal.Val.resultOf_apply m c i ⟨(i 0).val / 32, by omega⟩ ⟨(i 0).val % 32, Nat.mod_lt _ (by decide)⟩
      (by show 32 * ((i 0).val / 32) + (i 0).val % 32 = (i 0).val; omega)]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
